-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x512 : Shape := ⟨4, ![8, 32, 32, 512]⟩
abbrev S512x512 : Shape := ⟨2, ![512, 512]⟩
abbrev S512 : Shape := ⟨1, ![512]⟩
abbrev S_ : Shape := ⟨0, ![]⟩

class Facts : Prop where
  bcast_S_S8x32x32x512 : S_.BroadcastsInDim S8x32x32x512 (![] : Fin 0 → Fin S8x32x32x512.rank)
  reducesTo_S8x32x32x512_S_d0_1_2_3 : S8x32x32x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x32x32x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S8x32x32x512 .f32 := Host.absf main_arg0
  let main_cst : FVec F S_ .f32 := constant S_ .f32 0x7F800000#32
  let main_v1 : FVec F S8x32x32x512 .f32 := broadcastInDim S8x32x32x512 ![] bcast_S_S8x32x32x512 main_cst
  let main_v2 : IVec S8x32x32x512 1 := cmpf .olt main_v0 main_v1
  let main_c : IVec S_ 1 := constantI S_ 1 1#1
  let main_v3 : IVec S_ 1 := (fun x v => Host.reduce IntOp.andi x v reducesTo_S8x32x32x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8x32x32x512 : Shape := ⟨4, ![8, 32, 32, 512]⟩
abbrev S512x512 : Shape := ⟨2, ![512, 512]⟩
abbrev S512 : Shape := ⟨1, ![512]⟩
abbrev S8x1024x512 : Shape := ⟨3, ![8, 1024, 512]⟩
abbrev S1x512 : Shape := ⟨2, ![1, 512]⟩
abbrev S8x1x512 : Shape := ⟨3, ![8, 1, 512]⟩
abbrev S1x1024x512 : Shape := ⟨3, ![1, 1024, 512]⟩
abbrev S1x1x512 : Shape := ⟨3, ![1, 1, 512]⟩
abbrev S1024x512 : Shape := ⟨2, ![1024, 512]⟩
abbrev S_ : Shape := ⟨0, ![]⟩
abbrev S8x1x1024 : Shape := ⟨3, ![8, 1, 1024]⟩
abbrev S1x1x1024 : Shape := ⟨3, ![1, 1, 1024]⟩
abbrev S1x1024 : Shape := ⟨2, ![1, 1024]⟩
abbrev S1 : Shape := ⟨1, ![1]⟩
abbrev S1x1 : Shape := ⟨2, ![1, 1]⟩
abbrev S8x1024 : Shape := ⟨2, ![8, 1024]⟩

abbrev nBuf : Space → Nat
  | .hbm => 23
  | .vmem => 18
  | .smem => 0
  | _ => 0

abbrev bufTy : (tb : Table) → Fin (tcTables nBuf tb) → BufTy
  | .hbm, ⟨0, _⟩ => ⟨S8x32x32x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x1024x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S8x1024x512, .f32⟩
  | .hbm, ⟨15, _⟩ => ⟨S8x1x512, .f32⟩
  | .hbm, ⟨16, _⟩ => ⟨S_, .f32⟩
  | .hbm, ⟨17, _⟩ => ⟨S1x512, .f32⟩
  | .hbm, ⟨18, _⟩ => ⟨S1x1x512, .f32⟩
  | .hbm, ⟨19, _⟩ => ⟨S8x1x512, .f32⟩
  | .hbm, ⟨20, _⟩ => ⟨S8x1x512, .f32⟩
  | .hbm, ⟨21, _⟩ => ⟨S8x1x1024, .f32⟩
  | .hbm, ⟨22, _⟩ => ⟨S8x1024, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1x512, .f32⟩
  | .local _ .vmem, ⟨11, _⟩ => ⟨S1x1x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1x512, .f32⟩
  | .local _ .vmem, ⟨15, _⟩ => ⟨S1x1x512, .f32⟩
  | .local _ .vmem, ⟨16, _⟩ => ⟨S1x1x1024, .f32⟩
  | .local _ .vmem, ⟨17, _⟩ => ⟨S1x1x1024, .f32⟩
  | _, _ => ⟨S8x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x32x32x512_S8x1024x512 : S8x32x32x512.ShapeCasts S8x1024x512
  transposes_S512x512_S512x512_1_0 : S512x512.Transposes [1, 0] S512x512
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  reduces_S1024x512_S512 : S1024x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  reducesTo_S8x1x512_S1x512_d0 : S8x1x512.ReducesTo [0] S1x512
  h_S_ : 0 < S_.numel
  bcast_S1x512_S1x1x512_1_2 : S1x512.BroadcastsInDim S1x1x512 (![1, 2] : Fin 2 → Fin S1x1x512.rank)
  bcast_S1x1x512_S8x1x512_0_1_2 : S1x1x512.BroadcastsInDim S8x1x512 (![0, 1, 2] : Fin 3 → Fin S8x1x512.rank)
  reduces_S1x1024_S1 : S1x1024.Reduces [1] S1
  shapeCasts_S1_S1x1 : S1.ShapeCasts S1x1
  broadcasts_S1x1_S1x1024 : S1x1.Broadcasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S8x1x1024_S8x1024 : S8x1x1024.ShapeCasts S8x1024
  dot_S1024x512_S512x512_S1024x512_1_0_0_1_n_n_wf : DotDims.WF S1024x512 S512x512 S1024x512 [1] [0] [0] [1] [] []
  dot_S1x512_S1024x512_S1x1024_1_1_0_0_n_n_wf : DotDims.WF S1x512 S1024x512 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S8x1024x512.size a
  hwx0_7 : ∀ i : grid0.Coords, EltTy.bits .f32 = 32 ∨ (Rect.block (s := S8x1024x512) S1x1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S8x1x512.size a
  hwx0_8 : ∀ i : grid0.Coords, EltTy.bits .f32 = 32 ∨ (Rect.block (s := S8x1x512) S1x1x512.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x1024x512.size a
  hwx1_0 : ∀ i : grid1.Coords, EltTy.bits .f32 = 32 ∨ (Rect.block (s := S8x1024x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S8x1x512.size a
  hwx1_1 : ∀ i : grid1.Coords, EltTy.bits .f32 = 32 ∨ (Rect.block (s := S8x1x512) S1x1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S8x1x1024.size a
  hwx1_2 : ∀ i : grid1.Coords, EltTy.bits .f32 = 32 ∨ (Rect.block (s := S8x1x1024) S1x1x1024.size (cc1_transform_2 i) (hinb1_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1x1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x1x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v7_0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x32x32x512 : Shape := ⟨4, ![8, 32, 32, 512]⟩
abbrev S512x512 : Shape := ⟨2, ![512, 512]⟩
abbrev S512 : Shape := ⟨1, ![512]⟩
abbrev S1x1x1x512 : Shape := ⟨4, ![1, 1, 1, 512]⟩
abbrev S8192x512 : Shape := ⟨2, ![8192, 512]⟩
abbrev S512x8192 : Shape := ⟨2, ![512, 8192]⟩
abbrev S8192x8192 : Shape := ⟨2, ![8192, 8192]⟩
abbrev S_ : Shape := ⟨0, ![]⟩
abbrev S8x1024x8x1024 : Shape := ⟨4, ![8, 1024, 8, 1024]⟩
abbrev S8x1024x8 : Shape := ⟨3, ![8, 1024, 8]⟩
abbrev S8x1024 : Shape := ⟨2, ![8, 1024]⟩
abbrev S8 : Shape := ⟨1, ![8]⟩
abbrev S8x1 : Shape := ⟨2, ![8, 1]⟩
abbrev S8x2 : Shape := ⟨2, ![8, 2]⟩

abbrev nBuf : Space → Nat
  | .hbm => 81
  | .vmem => 0
  | .smem => 0
  | _ => 0

abbrev bufTy : (tb : Table) → Fin (tcTables nBuf tb) → BufTy
  | .hbm, ⟨0, _⟩ => ⟨S8x32x32x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x32x32x512, .f32⟩
  | .hbm, ⟨8, _⟩ => ⟨S1x1x1x512, .f32⟩
  | .hbm, ⟨9, _⟩ => ⟨S8x32x32x512, .f32⟩
  | .hbm, ⟨10, _⟩ => ⟨S8x32x32x512, .f32⟩
  | .hbm, ⟨11, _⟩ => ⟨S8x32x32x512, .f32⟩
  | .hbm, ⟨12, _⟩ => ⟨S8x32x32x512, .f32⟩
  | .hbm, ⟨13, _⟩ => ⟨S1x1x1x512, .f32⟩
  | .hbm, ⟨14, _⟩ => ⟨S8x32x32x512, .f32⟩
  | .hbm, ⟨15, _⟩ => ⟨S8x32x32x512, .f32⟩
  | .hbm, ⟨16, _⟩ => ⟨S8192x512, .f32⟩
  | .hbm, ⟨17, _⟩ => ⟨S8x32x32x512, .f32⟩
  | .hbm, ⟨18, _⟩ => ⟨S1x1x1x512, .f32⟩
  | .hbm, ⟨19, _⟩ => ⟨S8x32x32x512, .f32⟩
  | .hbm, ⟨20, _⟩ => ⟨S8x32x32x512, .f32⟩
  | .hbm, ⟨21, _⟩ => ⟨S8192x512, .f32⟩
  | .hbm, ⟨22, _⟩ => ⟨S512x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8x1024x8x1024, .f32⟩
  | .hbm, ⟨28, _⟩ => ⟨S_, .f32⟩
  | .hbm, ⟨29, _⟩ => ⟨S8x1024x8, .f32⟩
  | .hbm, ⟨30, _⟩ => ⟨S_, .f32⟩
  | .hbm, ⟨31, _⟩ => ⟨S8x1024, .f32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i1⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S8, .i32⟩
  | .hbm, ⟨41, _⟩ => ⟨S_, .i32⟩
  | .hbm, ⟨42, _⟩ => ⟨S8, .i32⟩
  | .hbm, ⟨43, _⟩ => ⟨S8, .i1⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S8, .i32⟩
  | .hbm, ⟨48, _⟩ => ⟨S8x1, .i32⟩
  | .hbm, ⟨49, _⟩ => ⟨S8x1, .i32⟩
  | .hbm, ⟨50, _⟩ => ⟨S8x2, .i32⟩
  | .hbm, ⟨51, _⟩ => ⟨S8x1024, .f32⟩
  | .hbm, ⟨52, _⟩ => ⟨S8x1024, .f32⟩
  | .hbm, ⟨53, _⟩ => ⟨S_, .f32⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S8, .f32⟩
  | .hbm, ⟨58, _⟩ => ⟨S8x1, .f32⟩
  | .hbm, ⟨59, _⟩ => ⟨S_, .f32⟩
  | .hbm, ⟨60, _⟩ => ⟨S8, .f32⟩
  | .hbm, ⟨61, _⟩ => ⟨S8x1, .f32⟩
  | .hbm, ⟨62, _⟩ => ⟨S8x1024, .f32⟩
  | .hbm, ⟨63, _⟩ => ⟨S8x1024, .f32⟩
  | .hbm, ⟨64, _⟩ => ⟨S8x1, .f32⟩
  | .hbm, ⟨65, _⟩ => ⟨S8x1024, .f32⟩
  | .hbm, ⟨66, _⟩ => ⟨S8x1024, .f32⟩
  | .hbm, ⟨67, _⟩ => ⟨S_, .f32⟩
  | .hbm, ⟨68, _⟩ => ⟨S8x1024, .f32⟩
  | .hbm, ⟨69, _⟩ => ⟨S8x1024, .f32⟩
  | .hbm, ⟨70, _⟩ => ⟨S_, .f32⟩
  | .hbm, ⟨71, _⟩ => ⟨S8x1024, .f32⟩
  | .hbm, ⟨72, _⟩ => ⟨S8x1024, .f32⟩
  | .hbm, ⟨73, _⟩ => ⟨S8x1024, .f32⟩
  | .hbm, ⟨74, _⟩ => ⟨S8x1024, .f32⟩
  | .hbm, ⟨75, _⟩ => ⟨S_, .f32⟩
  | .hbm, ⟨76, _⟩ => ⟨S8x1024, .f32⟩
  | .hbm, ⟨77, _⟩ => ⟨S8x1024, .f32⟩
  | .hbm, ⟨78, _⟩ => ⟨S_, .f32⟩
  | .hbm, ⟨79, _⟩ => ⟨S8x1024, .f32⟩
  | .hbm, ⟨80, _⟩ => ⟨S8x1024, .f32⟩
  | _, _ => ⟨S8x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S8x32x32x512_0_1_2_3 : S1x1x1x512.BroadcastsInDim S8x32x32x512 (![0, 1, 2, 3] : Fin 4 → Fin S8x32x32x512.rank)
  shapeCasts_S8x32x32x512_S8192x512 : S8x32x32x512.ShapeCasts S8192x512
  transposes_S8192x512_S512x8192_1_0 : S8192x512.Transposes [1, 0] S512x8192
  bcast_S_S8192x8192 : S_.BroadcastsInDim S8192x8192 (![] : Fin 0 → Fin S8192x8192.rank)
  shapeCasts_S8192x8192_S8x1024x8x1024 : S8192x8192.ShapeCasts S8x1024x8x1024
  reducesTo_S8x1024x8x1024_S8x1024x8_d3 : S8x1024x8x1024.ReducesTo [3] S8x1024x8
  h_S_ : 0 < S_.numel
  reducesTo_S8x1024x8_S8x1024_d2 : S8x1024x8.ReducesTo [2] S8x1024
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  bcast_S_S8x1024 : S_.BroadcastsInDim S8x1024 (![] : Fin 0 → Fin S8x1024.rank)
  reducesTo_S8x1024_S8_d1 : S8x1024.ReducesTo [1] S8
  bcast_S8x1_S8x1024_0_1 : S8x1.BroadcastsInDim S8x1024 (![0, 1] : Fin 2 → Fin S8x1024.rank)
  dot_S8x32x32x512_S512x512_S8x32x32x512_3_1_012_0_n_n_wf : DotDims.WF S8x32x32x512 S512x512 S8x32x32x512 [3] [1] [0, 1, 2] [0] [] []
  dot_S8192x512_S512x8192_S8192x8192_1_0_0_1_n_n_wf : DotDims.WF S8192x512 S512x8192 S8192x8192 [1] [0] [0] [1] [] []
  gather_S8x1024x8_S8x2_S8x1024_1_02_n_n_02_1_110241_wf : GatherDims.WF S8x1024x8 S8x2 S8x1024 [1] [0, 2] [] [0, 2] [] 1 ![1, 1024, 1]

variable [Facts₀]

def dot_S8x32x32x512_S512x512_S8x32x32x512_3_1_012_0_n_n : DotDims S8x32x32x512 S512x512 S8x32x32x512 where
  lhsContracting := [3]
  rhsContracting := [1]
  lhsNonContracting := [0, 1, 2]
  rhsNonContracting := [0]
  lhsBatch := []
  rhsBatch := []
  wf := dot_S8x32x32x512_S512x512_S8x32x32x512_3_1_012_0_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8x1024x8_S8x2_S8x1024_1_02_n_n_02_1_110241 : GatherDims S8x1024x8 S8x2 S8x1024 where
  offsetDims := [1]
  collapsedSliceDims := [0, 2]
  operandBatchingDims := []
  startIndicesBatchingDims := []
  startIndexMap := [0, 2]
  indexVectorDim := 1
  sliceSizes := ![1, 1024, 1]
  wf := gather_S8x1024x8_S8x2_S8x1024_1_02_n_n_02_1_110241_wf

class Facts : Prop extends Facts₀ where

variable [Facts]
-- ==== Proof.Spec.lean ====
/-
  The mathematics both programs compute, as plain functions over the extended reals.

  Inputs: a feature map x[b, p, c] (8 batches, 1024 pixels, 512 channels; the pixel p is the pair (h, w) = (p / 32, p % 32)
  of the rank-4 array), three 512 x 512 weight matrices in [out, in] layout and three biases.
    xr[b,p,o] = sum_c x[b,p,c] * cw[o,c] + cb[o] + x[b,p,o]            (1x1 convolution with residual)
    q [b,p,o] = sum_c xr[b,p,c] * qw[o,c] + qb[o],   k likewise with kw, kb
  The "reply" of pixel (i,p) is the mean affinity of its query with every key of every OTHER batch.
  Written as the reference does: each affinity q[i,p,:] . k[j,r,:] scaled by D, summed over r per key batch j, the sum over
  all j less the own-batch block, divided by n (`repAll`).
  Written as the kernel does: one contraction of q[i,p,:] with diff[i,:] = (sum over all batches and pixels of k) - (the own batch's
  sum over pixels of k), times ONE folded constant (`repFold`).
  Both are then min-max normalised along the pixels of a batch, shifted by t, divided by u and squashed by the logistic
  function (`squash`).  The normalisation forgets a positive common factor, which is why the two constants need not agree.
-/
import Idealize.ShloMosaic.PureOps.Ideal
import Idealize.ShloMosaic.Lib.ValueIdx

noncomputable section

namespace Cert.Attn

open Idealize.ShloMosaic Idealize.ShloMosaic.ValueIdx

/-- A feature map as a function of batch, pixel and channel. -/
abbrev Feat : Type := Fin 8 → Fin 1024 → Fin 512 → EReal

/-- Every entry of an array is a real number (neither infinity). -/
def AllReal {ι : Type} (f : ι → EReal) : Prop := ∀ i, ∃ r : ℝ, f i = (r : EReal)

/-! ## The arguments read at plain coordinates -/

/-- The rank-4 input at batch `b`, pixel `p = 32·h + w`, channel `c`. -/
def xin (x : FVec Ideal ⟨4, ![8, 32, 32, 512]⟩ .f32) : Feat := fun b p c =>
  x (ix4 b (⟨p.val / 32, by have := p.isLt; omega⟩ : Fin 32) (⟨p.val % 32, Nat.mod_lt _ (by norm_num)⟩ : Fin 32) c)

/-- A weight matrix at (out, in). -/
def win (w : FVec Ideal ⟨2, ![512, 512]⟩ .f32) : Fin 512 → Fin 512 → EReal := fun o c => w (ix2 o c)

/-- A bias at its channel. -/
def bin (b : FVec Ideal ⟨1, ![512]⟩ .f32) : Fin 512 → EReal := fun o => b (ix1 o)

/-! ## The three 1x1 convolutions -/

/-- `y[b,p,o] = Σ_c x[b,p,c]·w[o,c] + bias[o]`. -/
def proj (y : Feat) (w : Fin 512 → Fin 512 → EReal) (bias : Fin 512 → EReal) : Feat := fun b p o =>
  (∑ c : Fin 512, y b p c * w o c) + bias o

/-- The convolution with the residual added: `proj x cw cb + x`. -/
def resid (x : Feat) (cw : Fin 512 → Fin 512 → EReal) (cb : Fin 512 → EReal) : Feat := fun b p o =>
  proj x cw cb b p o + x b p o

/-! ## The reply, the kernel's way -/

/-- A batch's keys summed over its pixels. -/
def ksum (k : Feat) (j : Fin 8) (c : Fin 512) : EReal := ∑ r : Fin 1024, k j r c

/-- All keys summed, less the own batch's. -/
def diff (k : Feat) (i : Fin 8) (c : Fin 512) : EReal := (∑ j : Fin 8, ksum k j c) - ksum k i c

/-- One contraction with the difference, times the folded constant. -/
def repFold (q k : Feat) (cK : EReal) (i : Fin 8) (p : Fin 1024) : EReal := (∑ c : Fin 512, diff k i c * q i p c) * cK

/-! ## The reply, the reference's way -/

/-- The scaled affinity of query (i,p) with key (j,r). -/
def aff (q k : Feat) (D : EReal) (i : Fin 8) (p : Fin 1024) (j : Fin 8) (r : Fin 1024) : EReal :=
  (∑ c : Fin 512, q i p c * k j r c) * D

/-- Its sum over the keys of batch `j`. -/
def blockSum (q k : Feat) (D : EReal) (i : Fin 8) (p : Fin 1024) (j : Fin 8) : EReal := ∑ r : Fin 1024, aff q k D i p j r

/-- All blocks less the own one, divided by the number of foreign keys. -/
def repAll (q k : Feat) (D n : EReal) (i : Fin 8) (p : Fin 1024) : EReal :=
  Ideal.div ((∑ j : Fin 8, blockSum q k D i p j) - blockSum q k D i p i) n

/-! ## Normalise and squash -/

/-- The least entry of a row (from `⊤`). -/
def rowMin (f : Fin 1024 → EReal) : EReal := (Finset.univ : Finset (Fin 1024)).fold min ⊤ f

/-- The greatest entry of a row (from `⊥`). -/
def rowMax (f : Fin 1024 → EReal) : EReal := (Finset.univ : Finset (Fin 1024)).fold max ⊥ f

/-- Min-max normalise a batch's replies, shift by `t`, divide by `u`, squash. -/
def squash (rep : Fin 8 → Fin 1024 → EReal) (t u : EReal) (i : Fin 8) (p : Fin 1024) : EReal :=
  Ideal.logistic (Ideal.div (Ideal.div (rep i p - rowMin (rep i)) (rowMax (rep i) - rowMin (rep i)) - t) u)

/-! ## The constants, by their binary words -/

/-- The kernel's folded factor. -/
abbrev cK : EReal := Ideal.ofBits .f32 0x36CEE116#32
/-- The reference's scale. -/
abbrev cD : EReal := Ideal.ofBits .f32 0x3D3504F3#32
/-- The reference's divisor (7168). -/
abbrev cN : EReal := Ideal.ofBits .f32 0x45E00000#32
/-- The threshold. -/
abbrev cT : EReal := Ideal.ofBits .f32 0x3F266666#32
/-- The temperature. -/
abbrev cU : EReal := Ideal.ofBits .f32 0x3E19999A#32

/-! ## The two results as functions of the argument arrays -/

section
variable (x : FVec Ideal ⟨4, ![8, 32, 32, 512]⟩ .f32)
  (cw : FVec Ideal ⟨2, ![512, 512]⟩ .f32) (cb : FVec Ideal ⟨1, ![512]⟩ .f32)
  (qw : FVec Ideal ⟨2, ![512, 512]⟩ .f32) (qb : FVec Ideal ⟨1, ![512]⟩ .f32)
  (kw : FVec Ideal ⟨2, ![512, 512]⟩ .f32) (kb : FVec Ideal ⟨1, ![512]⟩ .f32)

/-- The residual features of the argument arrays. -/
def xrOf : Feat := resid (xin x) (win cw) (bin cb)
/-- The queries. -/
def qOf : Feat := proj (xrOf x cw cb) (win qw) (bin qb)
/-- The keys. -/
def kOf : Feat := proj (xrOf x cw cb) (win kw) (bin kb)

/-- What the kernel's program leaves in its result array. -/
def outFold : FVec Ideal ⟨2, ![8, 1024]⟩ .f32 := fun i =>
  squash (repFold (qOf x cw cb qw qb) (kOf x cw cb kw kb) cK) cT cU (i 0) (i 1)

/-- What the reference leaves in its result array. -/
def outAll : FVec Ideal ⟨2, ![8, 1024]⟩ .f32 := fun i =>
  squash (repAll (qOf x cw cb qw qb) (kOf x cw cb kw kb) cD cN) cT cU (i 0) (i 1)
end

end Cert.Attn

end
-- ==== Proof.Algebra.lean ====
/-
  The two ways of writing the reply agree after normalisation, when every input entry is a real number.
-/
import proofs.«154463_j3161095930112_1_alg».proof.Proof.Spec

noncomputable section

namespace Cert.Attn

open Idealize.ShloMosaic Idealize.ShloMosaic.ValueIdx

/-! ## Real numbers inside the extended reals -/

/-- The coercion of a finite sum of reals is the sum of the coercions. -/
theorem coe_sum_real {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Division of a real by a nonzero real is the real quotient. -/
theorem div_coe (y n : ℝ) (hn : n ≠ 0) : Ideal.div (y : EReal) (n : EReal) = ((y / n : ℝ) : EReal) := by
  have h : ((n : ℝ) : EReal) ≠ 0 := fun h => hn (by exact_mod_cast h)
  unfold Ideal.div
  rw [if_neg h, ← EReal.coe_inv, ← EReal.coe_mul, div_eq_mul_inv]

/-- A common positive factor of numerator and denominator drops out of a division of reals,
    the division by zero included (the sign of the numerator is unchanged). -/
theorem div_coe_scale (x y a : ℝ) (ha : 0 < a) :
    Ideal.div ((x * a : ℝ) : EReal) ((y * a : ℝ) : EReal) = Ideal.div (x : EReal) (y : EReal) := by
  by_cases hy : y = 0
  · subst hy
    have hpos : (0 : EReal) < ((x * a : ℝ) : EReal) ↔ (0 : EReal) < (x : EReal) := by
      rw [EReal.coe_pos, EReal.coe_pos]
      exact mul_pos_iff_of_pos_right ha
    unfold Ideal.div
    rw [zero_mul, EReal.coe_zero, if_pos rfl, if_pos rfl]
    by_cases hx : (0 : EReal) < (x : EReal)
    · rw [if_pos hx, if_pos (hpos.mpr hx)]
    · rw [if_neg hx, if_neg (fun h => hx (hpos.mp h))]
  · have hya : y * a ≠ 0 := mul_ne_zero hy ha.ne'
    rw [div_coe _ _ hya, div_coe _ _ hy, mul_div_mul_right _ _ ha.ne']

/-! ## Least and greatest entry of a row -/

/-- The fold of min over a row is the entry at any place where the row is least. -/
theorem rowMin_eq_of_le (f : Fin 1024 → EReal) (p0 : Fin 1024) (h : ∀ p, f p0 ≤ f p) : rowMin f = f p0 := by
  unfold rowMin
  apply le_antisymm
  · exact (Finset.fold_min_le _).mpr (Or.inr ⟨p0, Finset.mem_univ _, le_rfl⟩)
  · exact (Finset.le_fold_min _).mpr ⟨le_top, fun x _ => h x⟩

/-- The fold of max over a row is the entry at any place where the row is greatest. -/
theorem rowMax_eq_of_le (f : Fin 1024 → EReal) (p1 : Fin 1024) (h : ∀ p, f p ≤ f p1) : rowMax f = f p1 := by
  unfold rowMax
  apply le_antisymm
  · exact (Finset.fold_max_le _).mpr ⟨bot_le, fun x _ => h x⟩
  · exact (Finset.le_fold_max _).mpr (Or.inr ⟨p1, Finset.mem_univ _, le_rfl⟩)

/-- The min-max normalisation of a row. -/
def normRow (f : Fin 1024 → EReal) (p : Fin 1024) : EReal :=
  Ideal.div (f p - rowMin f) (rowMax f - rowMin f)

theorem squash_eq_normRow (rep : Fin 8 → Fin 1024 → EReal) (t u : EReal) (i : Fin 8) (p : Fin 1024) :
    squash rep t u i p = Ideal.logistic (Ideal.div (normRow (rep i) p - t) u) := rfl

/-- Min-max normalisation of a real row forgets a positive factor. -/
theorem normRow_scale (X : Fin 1024 → ℝ) (a : ℝ) (ha : 0 < a) (p : Fin 1024) :
    normRow (fun p => ((X p * a : ℝ) : EReal)) p = normRow (fun p => ((X p : ℝ) : EReal)) p := by
  obtain ⟨p0, -, h0⟩ := Finset.exists_min_image Finset.univ X Finset.univ_nonempty
  obtain ⟨p1, -, h1⟩ := Finset.exists_max_image Finset.univ X Finset.univ_nonempty
  have m1 : rowMin (fun p => ((X p * a : ℝ) : EReal)) = ((X p0 * a : ℝ) : EReal) :=
    rowMin_eq_of_le _ p0 (fun p => EReal.coe_le_coe_iff.mpr
      (mul_le_mul_of_nonneg_right (h0 p (Finset.mem_univ _)) ha.le))
  have m2 : rowMin (fun p => ((X p : ℝ) : EReal)) = ((X p0 : ℝ) : EReal) :=
    rowMin_eq_of_le _ p0 (fun p => EReal.coe_le_coe_iff.mpr (h0 p (Finset.mem_univ _)))
  have M1 : rowMax (fun p => ((X p * a : ℝ) : EReal)) = ((X p1 * a : ℝ) : EReal) :=
    rowMax_eq_of_le _ p1 (fun p => EReal.coe_le_coe_iff.mpr
      (mul_le_mul_of_nonneg_right (h1 p (Finset.mem_univ _)) ha.le))
  have M2 : rowMax (fun p => ((X p : ℝ) : EReal)) = ((X p1 : ℝ) : EReal) :=
    rowMax_eq_of_le _ p1 (fun p => EReal.coe_le_coe_iff.mpr (h1 p (Finset.mem_univ _)))
  unfold normRow
  rw [m1, m2, M1, M2]
  simp only [← EReal.coe_sub, ← sub_mul]
  exact div_coe_scale _ _ a ha

/-! ## The constants -/

/-- The folded factor is the positive real 13558038 / 2^41. -/
theorem cK_eq : cK = ((13558038 * (2 : ℝ) ^ (-41 : ℤ) : ℝ) : EReal) := by
  simp [Ideal.ofBits, Ideal.ieee, -EReal.coe_mul]

/-- The scale is the positive real 11863283 / 2^28. -/
theorem cD_eq : cD = ((11863283 * (2 : ℝ) ^ (-28 : ℤ) : ℝ) : EReal) := by
  simp [Ideal.ofBits, Ideal.ieee, -EReal.coe_mul]

/-- The divisor is the real 7168. -/
theorem cN_eq : cN = ((7168 : ℝ) : EReal) := by
  simp [Ideal.ofBits, Ideal.ieee, -EReal.coe_mul]; norm_num

theorem cK_pos : ∃ a : ℝ, 0 < a ∧ cK = (a : EReal) := ⟨_, by positivity, cK_eq⟩

theorem cD_pos : ∃ d : ℝ, 0 < d ∧ cD = (d : EReal) := ⟨_, by positivity, cD_eq⟩

theorem cN_pos : ∃ n : ℝ, 0 < n ∧ cN = (n : EReal) := ⟨_, by norm_num, cN_eq⟩

/-! ## The two replies over the reals -/

/-- The common real core of both replies: the query contracted with the difference of the key sums. -/
def core (qr kr : Fin 8 → Fin 1024 → Fin 512 → ℝ) (i : Fin 8) (p : Fin 1024) : ℝ :=
  ∑ c : Fin 512, ((∑ j : Fin 8, ∑ r : Fin 1024, kr j r c) - ∑ r : Fin 1024, kr i r c) * qr i p c

/-- The folded reply of real queries and keys is the core times the constant. -/
theorem repFold_coe (qr kr : Fin 8 → Fin 1024 → Fin 512 → ℝ) (a : ℝ) (i : Fin 8) (p : Fin 1024) :
    repFold (fun b p c => ((qr b p c : ℝ) : EReal)) (fun b p c => ((kr b p c : ℝ) : EReal)) (a : EReal) i p
      = ((core qr kr i p * a : ℝ) : EReal) := by
  unfold repFold diff ksum core
  simp only [← coe_sum_real, ← EReal.coe_sub, ← EReal.coe_mul]

/-- A block of scaled affinities of real queries and keys is a real double sum. -/
theorem blockSum_coe (qr kr : Fin 8 → Fin 1024 → Fin 512 → ℝ) (d : ℝ) (i : Fin 8) (p : Fin 1024) (j : Fin 8) :
    blockSum (fun b p c => ((qr b p c : ℝ) : EReal)) (fun b p c => ((kr b p c : ℝ) : EReal)) (d : EReal) i p j
      = ((∑ r : Fin 1024, (∑ c : Fin 512, qr i p c * kr j r c) * d : ℝ) : EReal) := by
  unfold blockSum aff
  simp only [← coe_sum_real, ← EReal.coe_mul]

/-- One block: the sum over the keys moves inside the contraction. -/
theorem block_swap (qv : Fin 512 → ℝ) (kv : Fin 1024 → Fin 512 → ℝ) (d : ℝ) :
    ∑ r : Fin 1024, (∑ c : Fin 512, qv c * kv r c) * d
      = (∑ c : Fin 512, (∑ r : Fin 1024, kv r c) * qv c) * d := by
  calc ∑ r : Fin 1024, (∑ c : Fin 512, qv c * kv r c) * d
      = (∑ r : Fin 1024, ∑ c : Fin 512, qv c * kv r c) * d := (Finset.sum_mul _ _ _).symm
    _ = (∑ c : Fin 512, ∑ r : Fin 1024, qv c * kv r c) * d := by rw [Finset.sum_comm]
    _ = (∑ c : Fin 512, (∑ r : Fin 1024, kv r c) * qv c) * d := by
        congr 1
        refine Finset.sum_congr rfl (fun c _ => ?_)
        rw [Finset.sum_mul]
        exact Finset.sum_congr rfl (fun r _ => mul_comm _ _)

/-- All blocks: the sum over the batches moves inside the contraction. -/
theorem blocks_swap (qv : Fin 512 → ℝ) (K : Fin 8 → Fin 512 → ℝ) (d : ℝ) :
    ∑ j : Fin 8, (∑ c : Fin 512, K j c * qv c) * d = (∑ c : Fin 512, (∑ j : Fin 8, K j c) * qv c) * d := by
  calc ∑ j : Fin 8, (∑ c : Fin 512, K j c * qv c) * d
      = (∑ j : Fin 8, ∑ c : Fin 512, K j c * qv c) * d := (Finset.sum_mul _ _ _).symm
    _ = (∑ c : Fin 512, ∑ j : Fin 8, K j c * qv c) * d := by rw [Finset.sum_comm]
    _ = (∑ c : Fin 512, (∑ j : Fin 8, K j c) * qv c) * d := by
        congr 1
        refine Finset.sum_congr rfl (fun c _ => ?_)
        rw [Finset.sum_mul]

/-- Over the reals, all blocks less the own block is the core times the scale. -/
theorem block_identity (qv : Fin 512 → ℝ) (kr : Fin 8 → Fin 1024 → Fin 512 → ℝ) (d : ℝ) (i : Fin 8) :
    (∑ j : Fin 8, ∑ r : Fin 1024, (∑ c : Fin 512, qv c * kr j r c) * d)
        - ∑ r : Fin 1024, (∑ c : Fin 512, qv c * kr i r c) * d
      = (∑ c : Fin 512, ((∑ j : Fin 8, ∑ r : Fin 1024, kr j r c) - ∑ r : Fin 1024, kr i r c) * qv c) * d := by
  have e1 : ∀ j : Fin 8, ∑ r : Fin 1024, (∑ c : Fin 512, qv c * kr j r c) * d
      = (∑ c : Fin 512, (∑ r : Fin 1024, kr j r c) * qv c) * d := fun j => block_swap qv (kr j) d
  rw [Finset.sum_congr rfl (fun j _ => e1 j), e1 i, blocks_swap qv (fun j c => ∑ r : Fin 1024, kr j r c) d,
    ← sub_mul, ← Finset.sum_sub_distrib]
  congr 1
  refine Finset.sum_congr rfl (fun c _ => ?_)
  rw [sub_mul]

/-- The blockwise reply of real queries and keys is the core times scale over divisor. -/
theorem repAll_coe (qr kr : Fin 8 → Fin 1024 → Fin 512 → ℝ) (d n : ℝ) (hn : n ≠ 0) (i : Fin 8) (p : Fin 1024) :
    repAll (fun b p c => ((qr b p c : ℝ) : EReal)) (fun b p c => ((kr b p c : ℝ) : EReal)) (d : EReal) (n : EReal) i p
      = ((core qr kr i p * (d / n) : ℝ) : EReal) := by
  unfold repAll
  simp only [blockSum_coe, ← coe_sum_real, ← EReal.coe_sub]
  rw [div_coe _ _ hn, block_identity (qr i p) kr d i, mul_div_assoc]
  rfl

/-! ## The first theorem -/

/-- For real queries and keys the kernel's folded reply and the reference's blockwise reply give the same squashed,
    min-max normalised result, for any shift t and divisor u. -/
theorem squash_repFold_eq_repAll (q k : Feat) (hq : ∀ b p c, ∃ r : ℝ, q b p c = (r : EReal))
    (hk : ∀ b p c, ∃ r : ℝ, k b p c = (r : EReal)) (t u : EReal) :
    squash (repFold q k cK) t u = squash (repAll q k cD cN) t u := by
  choose qr hqr using hq
  choose kr hkr using hk
  have eq : q = fun b p c => ((qr b p c : ℝ) : EReal) := by funext b p c; exact hqr b p c
  have ek : k = fun b p c => ((kr b p c : ℝ) : EReal) := by funext b p c; exact hkr b p c
  obtain ⟨a, ha, hcK⟩ := cK_pos
  obtain ⟨d, hd, hcD⟩ := cD_pos
  obtain ⟨n, hn, hcN⟩ := cN_pos
  rw [eq, ek, hcK, hcD, hcN]
  funext i p
  have h1 : repFold (fun b p c => ((qr b p c : ℝ) : EReal)) (fun b p c => ((kr b p c : ℝ) : EReal)) (a : EReal) i
      = fun p => ((core qr kr i p * a : ℝ) : EReal) := funext (fun p => repFold_coe qr kr a i p)
  have h2 : repAll (fun b p c => ((qr b p c : ℝ) : EReal)) (fun b p c => ((kr b p c : ℝ) : EReal)) (d : EReal) (n : EReal) i
      = fun p => ((core qr kr i p * (d / n) : ℝ) : EReal) := funext (fun p => repAll_coe qr kr d n hn.ne' i p)
  rw [squash_eq_normRow, squash_eq_normRow, h1, h2,
    normRow_scale (core qr kr i) a ha, normRow_scale (core qr kr i) (d / n) (div_pos hd hn)]

/-! ## Real arguments give real queries and keys -/

/-- An extended real that is a real number. -/
abbrev IsReal (a : EReal) : Prop := ∃ r : ℝ, a = (r : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of reals is real. -/
theorem IsReal.sum {ι : Type} (s : Finset ι) (f : ι → EReal) (h : ∀ i, IsReal (f i)) :
    IsReal (∑ i ∈ s, f i) := by
  choose g hg using h
  exact ⟨∑ i ∈ s, g i, by rw [coe_sum_real]; exact Finset.sum_congr rfl (fun i _ => hg i)⟩

/-- A projection of a real feature map by real weights and bias is real. -/
theorem proj_real (y : Feat) (w : Fin 512 → Fin 512 → EReal) (bias : Fin 512 → EReal)
    (hy : ∀ b p c, IsReal (y b p c)) (hw : ∀ o c, IsReal (w o c)) (hb : ∀ o, IsReal (bias o)) :
    ∀ b p o, IsReal (proj y w bias b p o) :=
  fun b p o => (IsReal.sum _ _ (fun c => (hy b p c).mul (hw o c))).add (hb o)

/-- Adding the residual keeps the features real. -/
theorem resid_real (y : Feat) (w : Fin 512 → Fin 512 → EReal) (bias : Fin 512 → EReal)
    (hy : ∀ b p c, IsReal (y b p c)) (hw : ∀ o c, IsReal (w o c)) (hb : ∀ o, IsReal (bias o)) :
    ∀ b p o, IsReal (resid y w bias b p o) :=
  fun b p o => (proj_real y w bias hy hw hb b p o).add (hy b p o)

theorem xin_real (x : FVec Ideal ⟨4, ![8, 32, 32, 512]⟩ .f32) (hx : AllReal x) : ∀ b p c, IsReal (xin x b p c) :=
  fun _ _ _ => hx _

theorem win_real (w : FVec Ideal ⟨2, ![512, 512]⟩ .f32) (hw : AllReal w) : ∀ o c, IsReal (win w o c) :=
  fun _ _ => hw _

theorem bin_real (b : FVec Ideal ⟨1, ![512]⟩ .f32) (hb : AllReal b) : ∀ o, IsReal (bin b o) :=
  fun _ => hb _

/-! ## The second theorem -/

/-- The two result arrays agree when every argument entry is real. -/
theorem outFold_eq_outAll (x : FVec Ideal ⟨4, ![8, 32, 32, 512]⟩ .f32)
    (cw : FVec Ideal ⟨2, ![512, 512]⟩ .f32) (cb : FVec Ideal ⟨1, ![512]⟩ .f32)
    (qw : FVec Ideal ⟨2, ![512, 512]⟩ .f32) (qb : FVec Ideal ⟨1, ![512]⟩ .f32)
    (kw : FVec Ideal ⟨2, ![512, 512]⟩ .f32) (kb : FVec Ideal ⟨1, ![512]⟩ .f32)
    (hx : AllReal x) (hcw : AllReal cw) (hcb : AllReal cb) (hqw : AllReal qw) (hqb : AllReal qb)
    (hkw : AllReal kw) (hkb : AllReal kb) :
    outFold x cw cb qw qb kw kb = outAll x cw cb qw qb kw kb := by
  have hxr : ∀ b p c, IsReal (xrOf x cw cb b p c) :=
    resid_real _ _ _ (xin_real x hx) (win_real cw hcw) (bin_real cb hcb)
  have hq : ∀ b p c, IsReal (qOf x cw cb qw qb b p c) :=
    proj_real _ _ _ hxr (win_real qw hqw) (bin_real qb hqb)
  have hk : ∀ b p c, IsReal (kOf x cw cb kw kb b p c) :=
    proj_real _ _ _ hxr (win_real kw hkw) (bin_real kb hkb)
  funext i
  exact congrFun (congrFun (squash_repFold_eq_repAll _ _ hq hk cT cU) (i 0)) (i 1)

end Cert.Attn

end
-- ==== Proof.Finite.lean ====
/-
  The precondition says every entry of every argument array is a real number.
-/
import proofs.«154463_j3161095930112_1_alg».proof.Pre_finite_inputs
import proofs.«154463_j3161095930112_1_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.Attn

open Idealize.ShloMosaic Idealize.ShloMosaic.ValueIdx

/-- The word of plus infinity. -/
theorem ofBits_f32_posInf : Ideal.ofBits .f32 0x7F800000#32 = ⊤ := by simp [Ideal.ofBits, Ideal.ieee]

/-- An extended real whose absolute value is below plus infinity is a real number. -/
theorem real_of_abs_lt_top (v : EReal) (hv : max v (-v) < ⊤) : ∃ r : ℝ, v = (r : EReal) := by
  induction v using EReal.rec with
  | bot => simp at hv
  | coe r => exact ⟨r, rfl⟩
  | top => simp at hv

/-- One array's conjunct of the predicate: if "every |entry| is below plus infinity", and-reduced over all axes from 1,
    is 1, then every entry is a real number. -/
theorem allReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hu ix0 = 1#1) : AllReal a := by
  intro i
  haveI : Subsingleton Cert.Pre_finite_inputs.S_.Idx := ⟨fun _ _ => funext fun d => d.elim0⟩
  have hi := Host.reduce_andi_all _ _ hr hu ix0 e i
  have hc : broadcastInDim s ![] hb (constant (F := Ideal) Cert.Pre_finite_inputs.S_ .f32 0x7F800000#32) i = ⊤ := by
    rw [broadcastInDim_apply _ hb _ i ix0 (fun d => d.elim0)]
    exact ofBits_f32_posInf
  have hcmp : Ideal.cmp .olt (max (a i) (-(a i))) ⊤ = 1#1 := by rw [← hc]; exact hi
  refine real_of_abs_lt_top (a i) ?_
  by_contra hn
  simp [Ideal.cmp, hn] at hcmp

/-- If the finiteness predicate of the seven argument arrays is all ones, each array's entries are real numbers. -/
theorem allReal_of_pre [Cert.Pre_finite_inputs.Facts]
    (x : FVec Ideal ⟨4, ![8, 32, 32, 512]⟩ .f32)
    (cw : FVec Ideal ⟨2, ![512, 512]⟩ .f32) (cb : FVec Ideal ⟨1, ![512]⟩ .f32)
    (qw : FVec Ideal ⟨2, ![512, 512]⟩ .f32) (qb : FVec Ideal ⟨1, ![512]⟩ .f32)
    (kw : FVec Ideal ⟨2, ![512, 512]⟩ .f32) (kb : FVec Ideal ⟨1, ![512]⟩ .f32)
    (h : Cert.Pre_finite_inputs.fn (F := Ideal) x cw cb qw qb kw kb = fun _ => 1#1) :
    AllReal x ∧ AllReal cw ∧ AllReal cb ∧ AllReal qw ∧ AllReal qb ∧ AllReal kw ∧ AllReal kb := by
  have h0 := congrFun h ix0
  dsimp only [Cert.Pre_finite_inputs.fn, Cert.Pre_finite_inputs.fn_part1] at h0
  obtain ⟨h1, e6⟩ := IntOp.andi_eq_one.1 h0
  obtain ⟨h2, e5⟩ := IntOp.andi_eq_one.1 h1
  obtain ⟨h3, e4⟩ := IntOp.andi_eq_one.1 h2
  obtain ⟨h4, e3⟩ := IntOp.andi_eq_one.1 h3
  obtain ⟨h5, e2⟩ := IntOp.andi_eq_one.1 h4
  obtain ⟨e0, e1⟩ := IntOp.andi_eq_one.1 h5
  exact ⟨allReal_of_all x _ _ _ e0, allReal_of_all cw _ _ _ e1, allReal_of_all cb _ _ _ e2, allReal_of_all qw _ _ _ e3,
    allReal_of_all qb _ _ _ e4, allReal_of_all kw _ _ _ e5, allReal_of_all kb _ _ _ e6⟩

end Cert.Attn

end
-- ==== Proof.RefValueA.lean ====
/-
  The reference program's first stages read at plain coordinates: the residual features, the queries and keys
  (flattened to 8192 rows), their scaled affinities, and the sums of the affinities over a key batch's pixels and then
  over the key batches.
-/
import proofs.«154463_j3161095930112_1_alg».proof.Proof.Gen.ReferenceIdeal.Read
import proofs.«154463_j3161095930112_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

variable (x0 : FVec Ideal S8x32x32x512 .f32) (x1 : FVec Ideal S512x512 .f32) (x2 : FVec Ideal S512 .f32)
  (x3 : FVec Ideal S512x512 .f32) (x4 : FVec Ideal S512 .f32) (x5 : FVec Ideal S512x512 .f32) (x6 : FVec Ideal S512 .f32)

/-- Where batch `b`, pixel `p`, channel `c` sits in the rank-4 array: row `p / 32`, column `p % 32`. -/
abbrev pidx (b : Fin 8) (p : Fin 1024) (c : Fin 512) : S8x32x32x512.Idx :=
  ix4 b (⟨p.val / 32, by have := p.isLt; omega⟩ : Fin 32) (⟨p.val % 32, Nat.mod_lt _ (by norm_num)⟩ : Fin 32) c

/-- The row of the flattened 8192-row array that holds batch `b`, pixel `p`. -/
abbrev row (b : Fin 8) (p : Fin 1024) : Fin 8192 := ⟨1024 * b.val + p.val, by have := b.isLt; have := p.isLt; omega⟩

/-- The residual features: the 1x1 convolution, its bias, and the input added back. -/
theorem xr_apply (b : Fin 8) (p : Fin 1024) (o : Fin 512) :
    val_main_v4 (F := Ideal) x0 x1 x2 (pidx b p o) = Cert.Attn.xrOf x0 x1 x2 b p o := by
  have el : ∀ k : Fin 512, lidx_main_v0 (pidx b p o) k = pidx b p k := fun k => funext fun a => by
    match a with | ⟨0, _⟩ => rfl | ⟨1, _⟩ => rfl | ⟨2, _⟩ => rfl | ⟨3, _⟩ => rfl
  have er : ∀ k : Fin 512, ridx_main_v0 (pidx b p o) k = ix2 o k := fun k => funext fun a => by
    match a with | ⟨0, _⟩ => rfl | ⟨1, _⟩ => rfl
  have eb : idx_main_v1 (idx_main_v2 (pidx b p o)) = ix1 o := funext fun a => by
    match a with | ⟨0, _⟩ => rfl
  rw [val_main_v4_apply, val_main_v3_apply, val_main_v0_apply, val_main_v2_apply, val_main_v1_apply, eb]
  simp only [el, er, Ideal.addf_def]
  rfl

/-- The flattened array's row `1024·b + p`, channel `c`, is the rank-4 array's batch `b`, pixel `p`, channel `c`. -/
theorem flat_idx (b : Fin 8) (p : Fin 1024) (c : Fin 512) : idx_main_v9 (ix2 (row b p) c) = pidx b p c := by
  have hb := b.isLt; have hp := p.isLt; have hc := c.isLt
  funext a
  refine Fin.ext ?_
  match a with
  | ⟨0, _⟩ => show ((1024 * b.val + p.val) * 512 + c.val) / 524288 = b.val; omega
  | ⟨1, _⟩ => show ((1024 * b.val + p.val) * 512 + c.val) / 16384 % 32 = p.val / 32; omega
  | ⟨2, _⟩ => show ((1024 * b.val + p.val) * 512 + c.val) / 512 % 32 = p.val % 32; omega
  | ⟨3, _⟩ => show ((1024 * b.val + p.val) * 512 + c.val) % 512 = c.val; omega

/-- A projection of the residual features read at batch, pixel and output channel. -/
theorem proj_idx (b : Fin 8) (p : Fin 1024) (c : Fin 512) :
    (∀ k : Fin 512, lidx_main_v5 (pidx b p c) k = pidx b p k) ∧ (∀ k : Fin 512, ridx_main_v5 (pidx b p c) k = ix2 c k)
      ∧ idx_main_v6 (idx_main_v7 (pidx b p c)) = ix1 c :=
  ⟨fun k => funext fun a => by match a with | ⟨0, _⟩ => rfl | ⟨1, _⟩ => rfl | ⟨2, _⟩ => rfl | ⟨3, _⟩ => rfl,
   fun k => funext fun a => by match a with | ⟨0, _⟩ => rfl | ⟨1, _⟩ => rfl,
   funext fun a => by match a with | ⟨0, _⟩ => rfl⟩

/-- The queries, in the flattened layout. -/
theorem q_apply (b : Fin 8) (p : Fin 1024) (c : Fin 512) :
    val_main_v9 (F := Ideal) x0 x1 x2 x3 x4 (ix2 (row b p) c) = Cert.Attn.qOf x0 x1 x2 x3 x4 b p c := by
  obtain ⟨el, er, eb⟩ := proj_idx b p c
  rw [val_main_v9_apply, flat_idx, val_main_v8_apply, val_main_v5_apply, val_main_v7_apply, val_main_v6_apply, eb]
  simp only [el, er, xr_apply, Ideal.addf_def]
  rfl

/-- The keys, in the flattened layout. -/
theorem k_apply (b : Fin 8) (p : Fin 1024) (c : Fin 512) :
    val_main_v14 (F := Ideal) x0 x1 x2 x5 x6 (ix2 (row b p) c) = Cert.Attn.kOf x0 x1 x2 x5 x6 b p c := by
  obtain ⟨el, er, eb⟩ := proj_idx b p c
  rw [val_main_v14_apply]
  show val_main_v13 (F := Ideal) x0 x1 x2 x5 x6 (idx_main_v9 (ix2 (row b p) c)) = _
  rw [flat_idx, val_main_v13_apply, val_main_v10_apply, val_main_v12_apply, val_main_v11_apply]
  show (∑ k : Fin 512, val_main_v4 (F := Ideal) x0 x1 x2 (lidx_main_v5 (pidx b p c) k) * x5 (ridx_main_v5 (pidx b p c) k))
    + x6 (idx_main_v6 (idx_main_v7 (pidx b p c))) = _
  rw [eb]
  simp only [el, er, xr_apply]
  rfl

/-- The scaled affinity of query row `(i, p)` with key row `(j, r)`. -/
theorem aff_apply (i : Fin 8) (p : Fin 1024) (j : Fin 8) (r : Fin 1024) :
    val_main_v18 (F := Ideal) x0 x1 x2 x3 x4 x5 x6 (ix2 (row i p) (row j r))
      = Cert.Attn.aff (Cert.Attn.qOf x0 x1 x2 x3 x4) (Cert.Attn.kOf x0 x1 x2 x5 x6) Cert.Attn.cD i p j r := by
  have el : ∀ k : Fin 512, lidx_main_v16 (ix2 (row i p) (row j r)) k = ix2 (row i p) k := fun k => funext fun a => by
    match a with | ⟨0, _⟩ => rfl | ⟨1, _⟩ => rfl
  have er : ∀ k : Fin 512, idx_main_v15 (ridx_main_v16 (ix2 (row i p) (row j r)) k) = ix2 (row j r) k := fun k => funext fun a => by
    match a with | ⟨0, _⟩ => rfl | ⟨1, _⟩ => rfl
  rw [val_main_v18_apply, val_main_v16_apply, val_main_v17_apply, val_main_cst_apply]
  simp only [val_main_v15_apply, el, er, q_apply, k_apply, Ideal.mulf_def, Ideal.ofBits_def]
  rfl

/-- The same affinity in the [8, 1024, 8, 1024] layout. -/
theorem aff4_apply (i : Fin 8) (p : Fin 1024) (j : Fin 8) (r : Fin 1024) :
    val_main_v19 (F := Ideal) x0 x1 x2 x3 x4 x5 x6 (ix4 i p j r)
      = Cert.Attn.aff (Cert.Attn.qOf x0 x1 x2 x3 x4) (Cert.Attn.kOf x0 x1 x2 x5 x6) Cert.Attn.cD i p j r := by
  have e : idx_main_v19 (ix4 i p j r) = ix2 (row i p) (row j r) := by
    have hi := i.isLt; have hp := p.isLt; have hj := j.isLt; have hr := r.isLt
    funext a
    refine Fin.ext ?_
    match a with
    | ⟨0, _⟩ => show (((i.val * 1024 + p.val) * 8 + j.val) * 1024 + r.val) / 8192 = 1024 * i.val + p.val; omega
    | ⟨1, _⟩ => show (((i.val * 1024 + p.val) * 8 + j.val) * 1024 + r.val) % 8192 = 1024 * j.val + r.val; omega
  rw [val_main_v19_apply, e, aff_apply]

/-- The affinities of a query summed over the pixels of key batch `j`. -/
theorem blockSum_apply (i : Fin 8) (p : Fin 1024) (j : Fin 8) :
    val_main_v20 (F := Ideal) x0 x1 x2 x3 x4 x5 x6 (ix3 i p j)
      = Cert.Attn.blockSum (Cert.Attn.qOf x0 x1 x2 x3 x4) (Cert.Attn.kOf x0 x1 x2 x5 x6) Cert.Attn.cD i p j := by
  have e : ∀ r : Fin 1024, idx_main_v20 (ix3 i p j) r = ix4 i p j r := fun r => funext fun a => by
    match a with | ⟨0, _⟩ => rfl | ⟨1, _⟩ => rfl | ⟨2, _⟩ => rfl | ⟨3, _⟩ => rfl
  rw [val_main_v20_apply, val_main_cst_0_apply, Ideal.ofBits_def, Ideal.ofBits_zero_f32, zero_add]
  simp only [e, aff4_apply]
  rfl

/-- The block sums of a query summed over all key batches. -/
theorem total_apply (i : Fin 8) (p : Fin 1024) :
    val_main_v21 (F := Ideal) x0 x1 x2 x3 x4 x5 x6 (ix2 i p)
      = ∑ j : Fin 8, Cert.Attn.blockSum (Cert.Attn.qOf x0 x1 x2 x3 x4) (Cert.Attn.kOf x0 x1 x2 x5 x6) Cert.Attn.cD i p j := by
  have e : ∀ j : Fin 8, idx_main_v21 (ix2 i p) j = ix3 i p j := fun j => funext fun a => by
    match a with | ⟨0, _⟩ => rfl | ⟨1, _⟩ => rfl | ⟨2, _⟩ => rfl
  rw [val_main_v21_apply, val_main_cst_1_apply, Ideal.ofBits_def, Ideal.ofBits_zero_f32, zero_add]
  simp only [e, blockSum_apply]

end Cert.ReferenceIdeal.RefValue

end
-- ==== Proof.RefValueB.lean ====
/-
  The reference program's gather of the own-batch block: the start indices, built from two copies of 0, 1, ..., 7
  (a copy is kept as it is because none of its entries is negative), send result element (a, p) to the block
  sums' element (a, p, a).
-/
import proofs.«154463_j3161095930112_1_alg».proof.Proof.Gen.ReferenceIdeal.Read
import proofs.«154463_j3161095930112_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-- The printed dimension numbers of the gather. -/
abbrev gd : GatherDims S8x1024x8 S8x2 S8x1024 := gather_S8x1024x8_S8x2_S8x1024_1_02_n_n_02_1_110241

/-- The wrap-around of a negative index leaves 0, 1, ..., 7 as they are (first copy). -/
theorem start_fst (a : Fin 8) : val_main_v28 (F := Ideal) (ix1 a) = BitVec.ofNat 32 a.val := by
  rw [val_main_v28_apply, val_main_v25_apply, val_main_v27_apply, val_main_v22_apply, val_main_v24_apply, val_main_c_apply,
    val_main_v26_apply, val_main_c_2_apply]
  show Scalar.select (IntOp.cmpi .slt (BitVec.ofNat 32 a.val) 0#32) (IntOp.addi (BitVec.ofNat 32 a.val) 8#32)
    (BitVec.ofNat 32 a.val) = BitVec.ofNat 32 a.val
  fin_cases a <;> decide

/-- The same for the second copy. -/
theorem start_snd (a : Fin 8) : val_main_v33 (F := Ideal) (ix1 a) = BitVec.ofNat 32 a.val := by
  rw [val_main_v33_apply, val_main_v30_apply, val_main_v32_apply, val_main_v23_apply, val_main_v29_apply, val_main_c_3_apply,
    val_main_v31_apply, val_main_c_4_apply]
  show Scalar.select (IntOp.cmpi .slt (BitVec.ofNat 32 a.val) 0#32) (IntOp.addi (BitVec.ofNat 32 a.val) 8#32)
    (BitVec.ofNat 32 a.val) = BitVec.ofNat 32 a.val
  fin_cases a <;> decide

/-- Column 0 of the start indices at row `a` is `a`. -/
theorem starts_col0 (a : Fin 8) : val_main_v36 (F := Ideal) (ix2 a (0 : Fin 2)) = BitVec.ofNat 32 a.val := by
  unfold val_main_v36
  rw [concatenate_pair_apply_left (1 : Fin S8x2.rank) _ _ concatenates_S8x1_S8x1_S8x2_d1 (ix2 a (0 : Fin 2)) rfl
    (ix2 a (0 : Fin 1)) (fun b => by match b with | ⟨0, _⟩ => rfl | ⟨1, _⟩ => rfl)]
  have e : idx_main_v34 (ix2 a (0 : Fin 1)) = ix1 a := funext fun c => by match c with | ⟨0, _⟩ => rfl
  rw [val_main_v34_apply, e, start_fst]

/-- Column 1 of the start indices at row `a` is `a`. -/
theorem starts_col1 (a : Fin 8) : val_main_v36 (F := Ideal) (ix2 a (1 : Fin 2)) = BitVec.ofNat 32 a.val := by
  unfold val_main_v36
  rw [concatenate_pair_apply_right (1 : Fin S8x2.rank) _ _ concatenates_S8x1_S8x1_S8x2_d1 (ix2 a (1 : Fin 2)) rfl rfl
    (ix2 a (0 : Fin 1)) (fun b hb => by match b with | ⟨0, _⟩ => rfl | ⟨1, _⟩ => exact absurd rfl hb) rfl]
  have e : idx_main_v35 (ix2 a (0 : Fin 1)) = ix1 a := funext fun c => by match c with | ⟨0, _⟩ => rfl
  rw [val_main_v35_apply, e, start_snd]

/-- A batch number read back from its 32-bit word, clamped to the last batch, is itself. -/
theorem clamp_word (a : Fin 8) : min (BitVec.ofNat 32 a.val).toInt.toNat (8 - 1) = a.val := by
  fin_cases a <;> decide

/-- Operand axis 0 (collapsed, first start-index component): the result's batch. -/
theorem own_axis0 (a : Fin 8) (p : Fin 1024) :
    (gd.operandIdx (ix2 a p) (val_main_v36 (F := Ideal)) 0).val = a.val := by
  show gd.start (ix2 a p) (val_main_v36 (F := Ideal)) 0 + gd.batchCoord (ix2 a p) 0 + gd.offCoord (ix2 a p) 0 = a.val
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S8x1024x8.rank) ∈ gd.startIndexMap by decide)]
  have hsi : gd.siIdx (ix2 a p) ⟨List.idxOf (0 : Fin S8x1024x8.rank) gd.startIndexMap,
      List.idxOf_lt_length_iff.2 (by decide)⟩ = ix2 a (0 : Fin 2) := by
    funext b; refine Fin.ext ?_
    match b with
    | ⟨0, _⟩ => rfl
    | ⟨1, _⟩ => rfl
  rw [hsi, starts_col0]
  exact clamp_word a

/-- Operand axis 1 (the one offset axis): the result's pixel. -/
theorem own_axis1 (a : Fin 8) (p : Fin 1024) :
    (gd.operandIdx (ix2 a p) (val_main_v36 (F := Ideal)) 1).val = p.val := by
  show gd.start (ix2 a p) (val_main_v36 (F := Ideal)) 1 + gd.batchCoord (ix2 a p) 1 + gd.offCoord (ix2 a p) 1 = p.val
  rw [GatherDims.batchCoord_eq_zero _ _ _ List.not_mem_nil]
  unfold GatherDims.start GatherDims.offCoord
  rw [dif_neg (show ¬(1 : Fin S8x1024x8.rank) ∈ gd.startIndexMap by decide),
    dif_pos (show (1 : Fin S8x1024x8.rank) ∈ gd.sKept by decide)]
  simp only [Nat.add_zero, Nat.zero_add]
  rfl

/-- Operand axis 2 (collapsed, second start-index component): the result's batch again. -/
theorem own_axis2 (a : Fin 8) (p : Fin 1024) :
    (gd.operandIdx (ix2 a p) (val_main_v36 (F := Ideal)) 2).val = a.val := by
  show gd.start (ix2 a p) (val_main_v36 (F := Ideal)) 2 + gd.batchCoord (ix2 a p) 2 + gd.offCoord (ix2 a p) 2 = a.val
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (2 : Fin S8x1024x8.rank) ∈ gd.startIndexMap by decide)]
  have hsi : gd.siIdx (ix2 a p) ⟨List.idxOf (2 : Fin S8x1024x8.rank) gd.startIndexMap,
      List.idxOf_lt_length_iff.2 (by decide)⟩ = ix2 a (1 : Fin 2) := by
    funext b; refine Fin.ext ?_
    match b with
    | ⟨0, _⟩ => rfl
    | ⟨1, _⟩ => rfl
  rw [hsi, starts_col1]
  exact clamp_word a

/-- The gather read at `(a, p)`: the operand at `(a, p, a)`. -/
theorem gather_apply (x : FVec Ideal S8x1024x8 .f32) (a : Fin 8) (p : Fin 1024) :
    Host.gather gd x (val_main_v36 (F := Ideal)) (ix2 a p) = x (ix3 a p a) := by
  unfold Host.gather
  refine congrArg x (funext fun c => Fin.ext ?_)
  match c with
  | ⟨0, _⟩ => exact own_axis0 a p
  | ⟨1, _⟩ => exact own_axis1 a p
  | ⟨2, _⟩ => exact own_axis2 a p

variable (x0 : FVec Ideal S8x32x32x512 .f32) (x1 : FVec Ideal S512x512 .f32) (x2 : FVec Ideal S512 .f32)
  (x3 : FVec Ideal S512x512 .f32) (x4 : FVec Ideal S512 .f32) (x5 : FVec Ideal S512x512 .f32) (x6 : FVec Ideal S512 .f32)

/-- The own-batch entry of the block sums. -/
theorem own_apply (a : Fin 8) (p : Fin 1024) :
    val_main_v37 (F := Ideal) x0 x1 x2 x3 x4 x5 x6 (ix2 a p) = val_main_v20 (F := Ideal) x0 x1 x2 x3 x4 x5 x6 (ix3 a p a) := by
  unfold val_main_v37
  exact gather_apply _ a p

end Cert.ReferenceIdeal.RefValue

end
-- ==== Proof.RefValueC.lean ====
/-
  The reference program's two row reductions and three of its constants: the least and the greatest entry of a row of
  an [8, 1024] array, folded from plus and minus infinity, and the binary words of plus infinity, minus infinity and one.
-/
import proofs.«154463_j3161095930112_1_alg».proof.Proof.Gen.ReferenceIdeal.Read
import proofs.«154463_j3161095930112_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-- The word of plus infinity. -/
theorem ofBits_posInf : Ideal.ofBits .f32 0x7F800000#32 = ⊤ := by simp [Ideal.ofBits, Ideal.ieee]

/-- The word of minus infinity. -/
theorem ofBits_negInf : Ideal.ofBits .f32 0xFF800000#32 = ⊥ := by simp [Ideal.ofBits, Ideal.ieee]

/-- The word of one. -/
theorem ofBits_one : Ideal.ofBits .f32 0x3F800000#32 = 1 := by
  simp [Ideal.ofBits, Ideal.ieee]
  rw [← EReal.coe_mul]; norm_num

/-- A row's index with the pixel inserted on the reduced axis. -/
theorem lift_row (h : S8x1024.Reduces [1] S8) (a : Fin 8) (p : Fin 1024) : h.lift (ix1 a) p = ix2 a p :=
  funext fun c => Fin.ext (by match c with | ⟨0, _⟩ => rfl | ⟨1, _⟩ => rfl)

/-- The minimum-reduce of row `a`: the least entry of the row, from plus infinity. -/
theorem rowMin_apply (y : FVec Ideal S8x1024 .f32) (a : Fin 8) :
    Host.reduce FloatOps.minimumf y (val_main_cst_6 (F := Ideal)) reducesTo_S8x1024_S8_d1 h_S_ (ix1 a)
      = Cert.Attn.rowMin (fun p => y (ix2 a p)) := by
  have h : S8x1024.Reduces [1] S8 := by decide
  rw [Host.reduce_eq_fold_single FloatOps.minimumf y _ reducesTo_S8x1024_S8_d1 h h_S_, val_main_cst_6_apply, Ideal.ofBits_def,
    ofBits_posInf]
  have hf : (y ∘ h.lift (ix1 a)) = fun p : Fin 1024 => y (ix2 a p) := funext fun p => congrArg y (lift_row h a p)
  rw [hf]
  rfl

/-- The maximum-reduce of row `a`: the greatest entry of the row, from minus infinity. -/
theorem rowMax_apply (y : FVec Ideal S8x1024 .f32) (a : Fin 8) :
    Host.reduce FloatOps.maximumf y (val_main_cst_7 (F := Ideal)) reducesTo_S8x1024_S8_d1 h_S_ (ix1 a)
      = Cert.Attn.rowMax (fun p => y (ix2 a p)) := by
  have h : S8x1024.Reduces [1] S8 := by decide
  rw [Host.reduce_eq_fold_single FloatOps.maximumf y _ reducesTo_S8x1024_S8_d1 h h_S_, val_main_cst_7_apply, Ideal.ofBits_def,
    ofBits_negInf]
  have hf : (y ∘ h.lift (ix1 a)) = fun p : Fin 1024 => y (ix2 a p) := funext fun p => congrArg y (lift_row h a p)
  rw [hf]
  rfl

end Cert.ReferenceIdeal.RefValue

end
-- ==== Proof.RefValue.lean ====
/-
  The reference program's result, read index by index, is the blockwise reply normalised and squashed (`Cert.Attn.outAll`).
-/
import proofs.«154463_j3161095930112_1_alg».proof.Proof.Gen.ReferenceIdeal.Read
import proofs.«154463_j3161095930112_1_alg».proof.Proof.Spec
import proofs.«154463_j3161095930112_1_alg».proof.Proof.RefValueA
import proofs.«154463_j3161095930112_1_alg».proof.Proof.RefValueB
import proofs.«154463_j3161095930112_1_alg».proof.Proof.RefValueC

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

section Stages

variable (x0 : FVec Ideal S8x32x32x512 .f32) (x1 : FVec Ideal S512x512 .f32) (x2 : FVec Ideal S512 .f32)
  (x3 : FVec Ideal S512x512 .f32) (x4 : FVec Ideal S512 .f32) (x5 : FVec Ideal S512x512 .f32) (x6 : FVec Ideal S512 .f32)

/-- The reply of the argument arrays, the reference's way: all block sums less the own one, over the number of
    foreign keys. -/
abbrev rep : Fin 8 → Fin 1024 → EReal :=
  Cert.Attn.repAll (Cert.Attn.qOf x0 x1 x2 x3 x4) (Cert.Attn.kOf x0 x1 x2 x5 x6) Cert.Attn.cD Cert.Attn.cN

/-- The masked mean: the total less the own block, divided by 7168. -/
theorem rep_apply (a : Fin 8) (p : Fin 1024) :
    val_main_v40 (F := Ideal) x0 x1 x2 x3 x4 x5 x6 (ix2 a p) = rep x0 x1 x2 x3 x4 x5 x6 a p := by
  rw [val_main_v40_apply, val_main_v38_apply, val_main_v39_apply, val_main_cst_5_apply, total_apply, own_apply, blockSum_apply]
  simp only [Ideal.hostDivf_def, Ideal.subf_def, Ideal.ofBits_def]
  rfl

/-- The least reply of batch `a`. -/
theorem min_apply (a : Fin 8) :
    val_main_v41 (F := Ideal) x0 x1 x2 x3 x4 x5 x6 (ix1 a) = Cert.Attn.rowMin (rep x0 x1 x2 x3 x4 x5 x6 a) := by
  unfold val_main_v41
  rw [rowMin_apply]
  simp only [rep_apply]

/-- The greatest reply of batch `a`. -/
theorem max_apply (a : Fin 8) :
    val_main_v43 (F := Ideal) x0 x1 x2 x3 x4 x5 x6 (ix1 a) = Cert.Attn.rowMax (rep x0 x1 x2 x3 x4 x5 x6 a) := by
  unfold val_main_v43
  rw [rowMax_apply]
  simp only [rep_apply]

/-- A row's entry of an [8, 1024] broadcast comes from column 0 of the [8, 1] array, which comes from the rank-1 one. -/
theorem col_idx (a : Fin 8) (p : Fin 1024) :
    idx_main_v45 (ix2 a p) = ix2 a (0 : Fin 1) ∧ idx_main_v48 (ix2 a p) = ix2 a (0 : Fin 1)
      ∧ idx_main_v42 (ix2 a (0 : Fin 1)) = ix1 a ∧ idx_main_v44 (ix2 a (0 : Fin 1)) = ix1 a :=
  ⟨funext fun c => by match c with | ⟨0, _⟩ => rfl | ⟨1, _⟩ => rfl,
   funext fun c => by match c with | ⟨0, _⟩ => rfl | ⟨1, _⟩ => rfl,
   funext fun c => by match c with | ⟨0, _⟩ => rfl,
   funext fun c => by match c with | ⟨0, _⟩ => rfl⟩

/-- The row minimum, broadcast along the row. -/
theorem minB_apply (a : Fin 8) (p : Fin 1024) :
    val_main_v45 (F := Ideal) x0 x1 x2 x3 x4 x5 x6 (ix2 a p) = Cert.Attn.rowMin (rep x0 x1 x2 x3 x4 x5 x6 a) := by
  obtain ⟨e45, _, e42, _⟩ := col_idx a p
  rw [val_main_v45_apply, e45, val_main_v42_apply, e42, min_apply]

/-- The row's span, maximum less minimum, broadcast along the row. -/
theorem span_apply (a : Fin 8) (p : Fin 1024) :
    val_main_v48 (F := Ideal) x0 x1 x2 x3 x4 x5 x6 (ix2 a p)
      = Cert.Attn.rowMax (rep x0 x1 x2 x3 x4 x5 x6 a) - Cert.Attn.rowMin (rep x0 x1 x2 x3 x4 x5 x6 a) := by
  obtain ⟨_, e48, e42, e44⟩ := col_idx a p
  rw [val_main_v48_apply, e48, val_main_v47_apply, val_main_v44_apply, val_main_v42_apply, e44, e42, max_apply, min_apply]
  rfl

/-- The min-max normalised reply, shifted by the threshold and divided by the temperature. -/
theorem norm_apply (a : Fin 8) (p : Fin 1024) :
    val_main_v53 (F := Ideal) x0 x1 x2 x3 x4 x5 x6 (ix2 a p)
      = Ideal.div (Ideal.div (rep x0 x1 x2 x3 x4 x5 x6 a p - Cert.Attn.rowMin (rep x0 x1 x2 x3 x4 x5 x6 a))
          (Cert.Attn.rowMax (rep x0 x1 x2 x3 x4 x5 x6 a) - Cert.Attn.rowMin (rep x0 x1 x2 x3 x4 x5 x6 a)) - Cert.Attn.cT)
          Cert.Attn.cU := by
  rw [val_main_v53_apply, val_main_v51_apply, val_main_v49_apply, val_main_v46_apply, val_main_v50_apply, val_main_cst_8_apply,
    val_main_v52_apply, val_main_cst_9_apply, rep_apply, minB_apply, span_apply]
  rfl

/-- The last six operations are the logistic function of the stage before them. -/
theorem out_apply (i : S8x1024.Idx) :
    val_main_v59 (F := Ideal) x0 x1 x2 x3 x4 x5 x6 i = Ideal.logistic (val_main_v53 (F := Ideal) x0 x1 x2 x3 x4 x5 x6 i) := by
  rw [val_main_v59_apply, val_main_v58_apply, val_main_cst_11_apply, val_main_v57_apply, val_main_v56_apply,
    val_main_cst_10_apply, val_main_v55_apply, val_main_v54_apply]
  simp only [Ideal.hostDivf_def, Ideal.addf_def, Ideal.ofBits_def, ofBits_one, Ideal.hostUnary_exp_def, Ideal.hostNegf_def,
    Ideal.negf_def]
  rfl

/-- The reference's result term is the blockwise reply, normalised and squashed. -/
theorem result_eq (x0 : FVec Ideal S8x32x32x512 .f32) (x1 : FVec Ideal S512x512 .f32) (x2 : FVec Ideal S512 .f32)
    (x3 : FVec Ideal S512x512 .f32) (x4 : FVec Ideal S512 .f32) (x5 : FVec Ideal S512x512 .f32) (x6 : FVec Ideal S512 .f32) :
    Read.val_main_v59 (F := Ideal) x0 x1 x2 x3 x4 x5 x6 = Cert.Attn.outAll x0 x1 x2 x3 x4 x5 x6 := by
  funext i
  obtain ⟨a, p, rfl⟩ : ∃ (a : Fin 8) (p : Fin 1024), i = ix2 a p := ⟨i 0, i 1, eq_ix2 i⟩
  rw [out_apply, norm_apply]
  rfl

end Stages

/-- Every weakly fair execution of the reference ends with its result array at `Cert.Attn.outAll` of the argument
    arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59)
        = Cert.Attn.outAll (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((Read.val_main_v59_eq m c).trans (result_eq _ _ _ _ _ _ _)), (h c).2⟩)
    (Cert.ReferenceIdeal.Value.run (F := Ideal) m ρ)

end Cert.ReferenceIdeal.RefValue

end
-- ==== Proof.KPay.lean ====
/-
  The kernel bodies' stored values read at an index, at the exact instance: the first body's query block and key column
  sums, the second body's squashed normalised replies.
-/
import proofs.«154463_j3161095930112_1_alg».proof.Proof.Gen.KernelIdeal.Skeleton
import proofs.«154463_j3161095930112_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.ValueIdx

/-- The residual features of one batch's block: `Σ_c' x[p,c']·cwT[c',c] + cb[c] + x[p,c]`. -/
def xrBlk (v0 : Vec Ideal S1x1024x512 .f32) (v3 : Vec Ideal S512x512 .f32) (v7 : Vec Ideal S1x512 .f32)
    (p : Fin 1024) (c : Fin 512) : EReal :=
  (∑ c' : Fin 512, v0 (ix3 (0 : Fin 1) p c') * v3 (ix2 c' c)) + v7 (ix2 (0 : Fin 1) c) + v0 (ix3 (0 : Fin 1) p c)

/-! ## The first body's product: [1024,512] times [512,512], contracting the left's columns with the right's rows -/

/-- The left operand's row is the result's row. -/
theorem lhsA_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column is the contraction position. -/
theorem lhsA_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row is the contraction position. -/
theorem rhsA_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column is the result's column. -/
theorem rhsA_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into the zero accumulator at (p, o): `Σ_k l[p,k]·r[k,o]`. -/
theorem matmulA_apply {φ₁ φ₂ : FTy} (prec : Option ContractPrecision) (l : FVec Ideal S1024x512 φ₁) (r : FVec Ideal S512x512 φ₂)
    (p : Fin 1024) (o : Fin 512) :
    matmul (F := Ideal) dot_S1024x512_S512x512_S1024x512_1_0_0_1_n_n prec l r (constant (F := Ideal) S1024x512 .f32 0x00000000#32) (ix2 p o)
      = ∑ k : Fin 512, l (ix2 p k) * r (ix2 k o) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p o) ((contrEquiv1 dot_S1024x512_S512x512_S1024x512_1_0_0_1_n_n 512 rfl rfl).symm k) = ix2 p k := funext fun a => Fin.ext (by
    match a with
    | ⟨0, _⟩ => exact lhsA_0 _ _
    | ⟨1, _⟩ => exact (lhsA_1 _ _).trans hk)
  have er : dot_S1024x512_S512x512_S1024x512_1_0_0_1_n_n.rhsIdx (ix2 p o) ((contrEquiv1 dot_S1024x512_S512x512_S1024x512_1_0_0_1_n_n 512 rfl rfl).symm k) = ix2 k o := funext fun a => Fin.ext (by
    match a with
    | ⟨0, _⟩ => exact (rhsA_0 _ _).trans hk
    | ⟨1, _⟩ => exact rhsA_1 _ _)
  rw [el, er]

/-- The value both later products read: the residual features, at (p, c). -/
theorem pay2_apply (v0 : Vec Ideal S1x1024x512 .f32) (v3 : Vec Ideal S512x512 .f32) (v7 : Vec Ideal S1x512 .f32)
    (p : Fin 1024) (c : Fin 512) :
    k0_pay2 (F := Ideal) v0 v3 v7 (ix2 p c) = xrBlk v0 v3 v7 p c := by
  unfold k0_pay2 xrBlk
  rw [truncf_apply, addf_apply, addf_apply, matmulA_apply, broadcastTo_1b_ab_apply, shapeCast_self, shapeCast_self,
    shapeCast_1ab_ab_apply]
  refine congrArg (fun s : EReal => s + v7 (ix2 (0 : Fin 1) c) + v0 (ix3 (0 : Fin 1) p c)) (Finset.sum_congr rfl fun k _ => ?_)
  rw [truncf_apply, truncf_apply, shapeCast_1ab_ab_apply]

/-- The query block the first body stores: `Σ_c xr[p,c]·qwT[c,o] + qb[o]`. -/
theorem pay3_apply (v0 : Vec Ideal S1x1024x512 .f32) (v3 : Vec Ideal S512x512 .f32) (v7 : Vec Ideal S1x512 .f32)
    (v13 : Vec Ideal S512x512 .f32) (v20 : Vec Ideal S1x512 .f32) (p : Fin 1024) (o : Fin 512) :
    k0_pay3 (F := Ideal) v0 v3 v7 v13 v20 (ix3 (0 : Fin 1) p o)
      = (∑ c : Fin 512, xrBlk v0 v3 v7 p c * v13 (ix2 c o)) + v20 (ix2 (0 : Fin 1) o) := by
  unfold k0_pay3
  rw [shapeCast_ab_1ab_apply, addf_apply, matmulA_apply, broadcastTo_1b_ab_apply, shapeCast_self, shapeCast_self]
  refine congrArg (fun s : EReal => s + v20 (ix2 (0 : Fin 1) o)) (Finset.sum_congr rfl fun k _ => ?_)
  rw [pay2_apply, truncf_apply]

/-- The sum over the rows of a [1024,512] vector, at column `o`: the reduced index with the row inserted is (r, o). -/
theorem rowSum_apply (src : FVec Ideal S1024x512 .f32) (o : Fin 512) :
    multiReduction (F := Ideal) .add [0] S512 src 0x00000000#32 reduces_S1024x512_S512 (.inl rfl) rfl (ix1 o)
      = ∑ r : Fin 1024, src (ix2 r o) := by
  refine (Ideal.multiReduction_add_single src 0x00000000#32 reduces_S1024x512_S512 (.inl rfl) rfl (ix1 o)).trans ?_
  refine Finset.sum_congr rfl fun r _ => congrArg src ?_
  funext a
  match a with
  | ⟨0, _⟩ => rfl
  | ⟨1, _⟩ => rfl

/-- The key column sums the first body returns: `Σ_r (Σ_c xr[r,c]·kwT[c,o] + kb[o])`. -/
theorem pay4_apply (v0 : Vec Ideal S1x1024x512 .f32) (v3 : Vec Ideal S512x512 .f32) (v7 : Vec Ideal S1x512 .f32)
    (v16 : Vec Ideal S512x512 .f32) (v25 : Vec Ideal S1x512 .f32) (o : Fin 512) :
    k0_pay4 (F := Ideal) v0 v3 v7 v16 v25 (ix2 (0 : Fin 1) o)
      = ∑ r : Fin 1024, ((∑ c : Fin 512, xrBlk v0 v3 v7 r c * v16 (ix2 c o)) + v25 (ix2 (0 : Fin 1) o)) := by
  unfold k0_pay4
  rw [shapeCast_a_1a_apply, rowSum_apply]
  refine Finset.sum_congr rfl fun r _ => ?_
  rw [addf_apply, matmulA_apply, broadcastTo_1b_ab_apply, shapeCast_self, shapeCast_self]
  refine congrArg (fun s : EReal => s + v25 (ix2 (0 : Fin 1) o)) (Finset.sum_congr rfl fun k _ => ?_)
  rw [pay2_apply, truncf_apply]

/-- Adding a unit axis moves no entry. -/
theorem pay1_apply (v33 : FVec Ideal S1x512 .f32) (o : Fin 512) :
    k0_pay1 (F := Ideal) v33 (ix3 (0 : Fin 1) (0 : Fin 1) o) = v33 (ix2 (0 : Fin 1) o) := by
  unfold k0_pay1
  exact shapeCast_ab_1ab_apply v33 _ (0 : Fin 1) (0 : Fin 1) o

/-! ## The second body's pieces -/

/-- The f32 word of +∞ is the top extended real … -/
theorem ofBits_posInf : Ideal.ofBits .f32 0x7F800000#32 = ⊤ := by simp [Ideal.ofBits, Ideal.ieee]
/-- … and the word of -∞ the bottom one. -/
theorem ofBits_negInf : Ideal.ofBits .f32 0xFF800000#32 = ⊥ := by simp [Ideal.ofBits, Ideal.ieee]

/-- The squashing function at an index is the extended reals' logistic function of the entry. -/
theorem logistic_apply {s : Shape} {φ : FTy} (a : FVec Ideal s φ) (i : s.Idx) : logistic a i = Ideal.logistic (a i) := rfl

/-- A [1,1] array broadcast along its second axis reads its one entry everywhere. -/
theorem broadcastTo_11_1b_apply {α : Type} {b : ℕ} (v : (⟨2, ![1, 1]⟩ : Shape).Idx → α)
    (h : (⟨2, ![1, 1]⟩ : Shape).Broadcasts ⟨2, ![1, b]⟩) (u : Fin 1) (p : Fin b) :
    broadcastTo ⟨2, ![1, b]⟩ v h (ix2 u p) = v (ix2 (0 : Fin 1) (0 : Fin 1)) := by
  refine broadcastTo_apply v h (ix2 u p) (ix2 (0 : Fin 1) (0 : Fin 1)) fun ax => ?_
  match ax with
  | ⟨0, _⟩ => rfl
  | ⟨1, _⟩ => rfl

/-- The reduced index `a` with the column `p` inserted is (a, p). -/
theorem lift_row (a : Fin 1) (p : Fin 1024) : reduces_S1x1024_S1.lift (ix1 a) p = ix2 a p := by
  funext ax
  match ax with
  | ⟨0, _⟩ => rfl
  | ⟨1, _⟩ => rfl

/-- The least entry of a [1,1024] row, from +∞. -/
theorem rowMin_apply (src : FVec Ideal S1x1024 .f32) (hφ : FKind.Formats .f32)
    (hacc : (0x7F800000#32 : BitVec 32) = 0x7F800000#32) (a : Fin 1) :
    multiReduction (F := Ideal) .minimumf [1] S1 src 0x7F800000#32 reduces_S1x1024_S1 hφ hacc (ix1 a)
      = Cert.Attn.rowMin fun p => src (ix2 a p) := by
  refine (multiReduction_minimumf_eq_fold src 0x7F800000#32 reduces_S1x1024_S1 hφ hacc (ix1 a)).trans ?_
  refine (reduces_S1x1024_S1.fold_filter_drop_single _ _ src (ix1 a)).trans ?_
  show (Finset.univ : Finset (Fin 1024)).fold min (Ideal.ofBits .f32 0x7F800000#32) (fun p => src (reduces_S1x1024_S1.lift (ix1 a) p)) = _
  rw [ofBits_posInf]
  exact congrArg (fun f => Finset.fold min ⊤ f Finset.univ) (funext fun p => congrArg src (lift_row a p))

/-- The greatest entry of a [1,1024] row, from -∞. -/
theorem rowMax_apply (src : FVec Ideal S1x1024 .f32) (hφ : FKind.Formats .f32)
    (hacc : (0xFF800000#32 : BitVec 32) = 0xFF800000#32) (a : Fin 1) :
    multiReduction (F := Ideal) .maximumf [1] S1 src 0xFF800000#32 reduces_S1x1024_S1 hφ hacc (ix1 a)
      = Cert.Attn.rowMax fun p => src (ix2 a p) := by
  refine (Ideal.multiReduction_maximumf_single src 0xFF800000#32 reduces_S1x1024_S1 hφ hacc (ix1 a)).trans ?_
  show (Finset.univ : Finset (Fin 1024)).fold max (Ideal.ofBits .f32 0xFF800000#32) (fun p => src (reduces_S1x1024_S1.lift (ix1 a) p)) = _
  rw [ofBits_negInf]
  exact congrArg (fun f => Finset.fold max ⊥ f Finset.univ) (funext fun p => congrArg src (lift_row a p))

/-! ## The second body's product: [1,512] times [1024,512], contracting the columns of both -/

/-- The left operand's row is the result's row. -/
theorem lhsB_0 (i : S1x1024.Idx) (q : dot_S1x512_S1024x512_S1x1024_1_1_0_0_n_n.contr.Idx) :
    (dot_S1x512_S1024x512_S1x1024_1_1_0_0_n_n.lhsIdx i q 0).val = (i 0).val := by
  unfold DotDims.lhsIdx
  rw [dif_neg (show ¬(0 : Fin S1x512.rank) ∈ dot_S1x512_S1024x512_S1x1024_1_1_0_0_n_n.lhsBatch by decide), dif_pos (show (0 : Fin S1x512.rank) ∈ dot_S1x512_S1024x512_S1x1024_1_1_0_0_n_n.lhsNonContracting by decide)]
  rfl
/-- The left operand's column is the contraction position. -/
theorem lhsB_1 (i : S1x1024.Idx) (q : dot_S1x512_S1024x512_S1x1024_1_1_0_0_n_n.contr.Idx) :
    (dot_S1x512_S1024x512_S1x1024_1_1_0_0_n_n.lhsIdx i q 1).val = (q ⟨0, by decide⟩).val :=
  dot_S1x512_S1024x512_S1x1024_1_1_0_0_n_n.lhsIdx_val_of_single rfl i q
/-- The right operand's row is the result's column. -/
theorem rhsB_0 (i : S1x1024.Idx) (q : dot_S1x512_S1024x512_S1x1024_1_1_0_0_n_n.contr.Idx) :
    (dot_S1x512_S1024x512_S1x1024_1_1_0_0_n_n.rhsIdx i q 0).val = (i 1).val := by
  unfold DotDims.rhsIdx
  rw [dif_neg (show ¬(0 : Fin S1024x512.rank) ∈ dot_S1x512_S1024x512_S1x1024_1_1_0_0_n_n.rhsBatch by decide), dif_pos (show (0 : Fin S1024x512.rank) ∈ dot_S1x512_S1024x512_S1x1024_1_1_0_0_n_n.rhsNonContracting by decide)]
  rfl
/-- The right operand's column is the contraction position. -/
theorem rhsB_1 (i : S1x1024.Idx) (q : dot_S1x512_S1024x512_S1x1024_1_1_0_0_n_n.contr.Idx) :
    (dot_S1x512_S1024x512_S1x1024_1_1_0_0_n_n.rhsIdx i q 1).val = (q ⟨0, by decide⟩).val :=
  dot_S1x512_S1024x512_S1x1024_1_1_0_0_n_n.rhsIdx_val_of_single rfl i q

/-- The product into the zero accumulator at (a, p): `Σ_k l[a,k]·r[p,k]`. -/
theorem matmulB_apply {φ₁ φ₂ : FTy} (prec : Option ContractPrecision) (l : FVec Ideal S1x512 φ₁) (r : FVec Ideal S1024x512 φ₂)
    (a : Fin 1) (p : Fin 1024) :
    matmul (F := Ideal) dot_S1x512_S1024x512_S1x1024_1_1_0_0_n_n prec l r (constant (F := Ideal) S1x1024 .f32 0x00000000#32) (ix2 a p)
      = ∑ k : Fin 512, l (ix2 a k) * r (ix2 p k) := by
  simp only [matmul]
  rw [Ideal.matmul_constant_zero_apply, ← Equiv.sum_comp (contrEquiv1 dot_S1x512_S1024x512_S1x1024_1_1_0_0_n_n 512 rfl rfl).symm]
  refine Finset.sum_congr rfl fun k _ => ?_
  have hk := contrEquiv1_symm_val dot_S1x512_S1024x512_S1x1024_1_1_0_0_n_n 512 rfl rfl k
  have el : dot_S1x512_S1024x512_S1x1024_1_1_0_0_n_n.lhsIdx (ix2 a p) ((contrEquiv1 dot_S1x512_S1024x512_S1x1024_1_1_0_0_n_n 512 rfl rfl).symm k) = ix2 a k := funext fun ax => Fin.ext (by
    match ax with
    | ⟨0, _⟩ => exact lhsB_0 _ _
    | ⟨1, _⟩ => exact (lhsB_1 _ _).trans hk)
  have er : dot_S1x512_S1024x512_S1x1024_1_1_0_0_n_n.rhsIdx (ix2 a p) ((contrEquiv1 dot_S1x512_S1024x512_S1x1024_1_1_0_0_n_n 512 rfl rfl).symm k) = ix2 p k := funext fun ax => Fin.ext (by
    match ax with
    | ⟨0, _⟩ => exact rhsB_0 _ _
    | ⟨1, _⟩ => exact (rhsB_1 _ _).trans hk)
  rw [el, er]

/-- The second body's store: the replies `(Σ_c d[c]·q[p,c])·cK` of one batch, normalised and squashed. -/
theorem k1_pay1_apply (v0 : Vec Ideal S1x1024x512 .f32) (v2 : Vec Ideal S1x1x512 .f32) (p : Fin 1024) :
    k1_pay1 (F := Ideal) v0 v2 (ix3 (0 : Fin 1) (0 : Fin 1) p)
      = Cert.Attn.squash (fun _ p' => (∑ c : Fin 512, v2 (ix3 (0 : Fin 1) (0 : Fin 1) c) * v0 (ix3 (0 : Fin 1) p' c)) * Cert.Attn.cK)
          Cert.Attn.cT Cert.Attn.cU 0 p := by
  unfold k1_pay1 Cert.Attn.squash
  simp only [shapeCast_ab_1ab_apply, logistic_apply, divf_apply, subf_apply, mulf_apply, broadcast_apply,
    broadcastTo_11_1b_apply, shapeCast_a_1a_apply, matmulB_apply, shapeCast_1ab_ab_apply]
  rw [rowMin_apply, rowMax_apply]
  simp only [mulf_apply, broadcast_apply, matmulB_apply, shapeCast_1ab_ab_apply]
  rfl

end Cert.KernelIdeal.KVal

end
-- ==== Proof.KReg0.lean ====
/-
  What the first pallas_call leaves in its two result arrays, as functions of the arrays it finds on entry:
  batch `b`'s query block is the query projection of that batch's rows, and its key row is the sum over the batch's
  pixels of the key projection.
-/
import proofs.«154463_j3161095930112_1_alg».proof.Proof.Gen.KernelIdeal.Frame
import proofs.«154463_j3161095930112_1_alg».proof.Proof.KPay
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays the region reads, at their literal types -/

abbrev aX (c : Dev nD) : Vec Ideal S8x1024x512 .f32 := V c main_v0
abbrev aCw (c : Dev nD) : Vec Ideal S512x512 .f32 := V c main_v1
abbrev aCb (c : Dev nD) : Vec Ideal S1x512 .f32 := V c main_v4
abbrev aQw (c : Dev nD) : Vec Ideal S512x512 .f32 := V c main_v2
abbrev aQb (c : Dev nD) : Vec Ideal S1x512 .f32 := V c main_v5
abbrev aKw (c : Dev nD) : Vec Ideal S512x512 .f32 := V c main_v3
abbrev aKb (c : Dev nD) : Vec Ideal S1x512 .f32 := V c main_v6

/-- A grid point as a batch number. -/
abbrev bat0 (t : Fin cfg0.N) : Fin 8 := Fin.cast N_0 t

theorem hz3 : (![0, 0, 0] : Fin 3 → Nat) = fun _ => 0 := funext fun a => by fin_cases a <;> rfl
theorem hz2 : (![0, 0] : Fin 2 → Nat) = fun _ => 0 := funext fun a => by fin_cases a <;> rfl

/-! ## Each window's block at a point, as entries of its array -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Batch `t`'s rows of the input. -/
theorem iblk0_0' (c : Dev nD) (t : Fin cfg0.N) (y : S1x1024x512.Idx) :
    (iblk0 V c 0 t : Vec Ideal S1x1024x512 .f32) y = aX V c (ix3 (bat0 t) (y 1) (y 2)) := by
  obtain ⟨e0, e1, e2⟩ := idx0_0 t
  unfold iblk0
  rw [View.read_apply]
  show V c main_v0 _ = V c main_v0 _
  congr 1
  funext a
  apply Fin.ext
  have hy0 : (y 0).val < 1 := (y 0).isLt
  match a with
  | ⟨0, _⟩ => show win0_0.index t (0 : Fin 3) * 1 + 1 * (y 0).val = t.val; omega
  | ⟨1, _⟩ => show win0_0.index t (1 : Fin 3) * 1024 + 1 * (y 1).val = (y 1).val; omega
  | ⟨2, _⟩ => show win0_0.index t (2 : Fin 3) * 512 + 1 * (y 2).val = (y 2).val; omega

theorem iblk0_0 (c : Dev nD) (t : Fin cfg0.N) (z : Fin 1) (p : Fin 1024) (cc : Fin 512) :
    (iblk0 V c 0 t : Vec Ideal S1x1024x512 .f32) (ix3 z p cc) = aX V c (ix3 (bat0 t) p cc) :=
  iblk0_0' V c t (ix3 z p cc)

theorem idx0_1 : ∀ t : Fin cfg0.N, win0_1.index t (0 : Fin 2) = 0 ∧ win0_1.index t (1 : Fin 2) = 0 :=
  (by decide +kernel : ∀ t : Fin grid0.N, _)

theorem iblk0_1 (c : Dev nD) (t : Fin cfg0.N) (y : S512x512.Idx) :
    (iblk0 V c 1 t : Vec Ideal S512x512 .f32) y = aCw V c y := by
  obtain ⟨e0, e1⟩ := idx0_1 t
  unfold iblk0
  rw [View.read_apply]
  show V c _ _ = V c _ _
  congr 1
  funext a
  apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega

theorem idx0_2 : ∀ t : Fin cfg0.N, win0_2.index t (0 : Fin 2) = 0 ∧ win0_2.index t (1 : Fin 2) = 0 :=
  (by decide +kernel : ∀ t : Fin grid0.N, _)

theorem iblk0_2 (c : Dev nD) (t : Fin cfg0.N) (y : S1x512.Idx) :
    (iblk0 V c 2 t : Vec Ideal S1x512 .f32) y = aCb V c y := by
  obtain ⟨e0, e1⟩ := idx0_2 t
  unfold iblk0
  rw [View.read_apply]
  show V c _ _ = V c _ _
  congr 1
  funext a
  apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem idx0_3 : ∀ t : Fin cfg0.N, win0_3.index t (0 : Fin 2) = 0 ∧ win0_3.index t (1 : Fin 2) = 0 :=
  (by decide +kernel : ∀ t : Fin grid0.N, _)

theorem iblk0_3 (c : Dev nD) (t : Fin cfg0.N) (y : S512x512.Idx) :
    (iblk0 V c 3 t : Vec Ideal S512x512 .f32) y = aQw V c y := by
  obtain ⟨e0, e1⟩ := idx0_3 t
  unfold iblk0
  rw [View.read_apply]
  show V c _ _ = V c _ _
  congr 1
  funext a
  apply Fin.ext
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem idx0_4 : ∀ t : Fin cfg0.N, win0_4.index t (0 : Fin 2) = 0 ∧ win0_4.index t (1 : Fin 2) = 0 :=
  (by decide +kernel : ∀ t : Fin grid0.N, _)

theorem iblk0_4 (c : Dev nD) (t : Fin cfg0.N) (y : S1x512.Idx) :
    (iblk0 V c 4 t : Vec Ideal S1x512 .f32) y = aQb V c y := by
  obtain ⟨e0, e1⟩ := idx0_4 t
  unfold iblk0
  rw [View.read_apply]
  show V c _ _ = V c _ _
  congr 1
  funext a
  apply Fin.ext
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem idx0_5 : ∀ t : Fin cfg0.N, win0_5.index t (0 : Fin 2) = 0 ∧ win0_5.index t (1 : Fin 2) = 0 :=
  (by decide +kernel : ∀ t : Fin grid0.N, _)

theorem iblk0_5 (c : Dev nD) (t : Fin cfg0.N) (y : S512x512.Idx) :
    (iblk0 V c 5 t : Vec Ideal S512x512 .f32) y = aKw V c y := by
  obtain ⟨e0, e1⟩ := idx0_5 t
  unfold iblk0
  rw [View.read_apply]
  show V c _ _ = V c _ _
  congr 1
  funext a
  apply Fin.ext
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem idx0_6 : ∀ t : Fin cfg0.N, win0_6.index t (0 : Fin 2) = 0 ∧ win0_6.index t (1 : Fin 2) = 0 :=
  (by decide +kernel : ∀ t : Fin grid0.N, _)

theorem iblk0_6 (c : Dev nD) (t : Fin cfg0.N) (y : S1x512.Idx) :
    (iblk0 V c 6 t : Vec Ideal S1x512 .f32) y = aKb V c y := by
  obtain ⟨e0, e1⟩ := idx0_6 t
  unfold iblk0
  rw [View.read_apply]
  show V c _ _ = V c _ _
  congr 1
  funext a
  apply Fin.ext
  match a with
  | ⟨0, _⟩ => show win0_6.index t (0 : Fin 2) * 1 + 1 * (y 0).val = (y 0).val; omega
  | ⟨1, _⟩ => show win0_6.index t (1 : Fin 2) * 512 + 1 * (y 1).val = (y 1).val; omega

/-! ## The two result arrays -/

/-- The residual features of batch `b`, from the arrays as the region finds them. -/
def xr0 (c : Dev nD) (b : Fin 8) (p : Fin 1024) (cc : Fin 512) : EReal :=
  (∑ c' : Fin 512, aX V c (ix3 b p c') * aCw V c (ix2 c' cc)) + aCb V c (ix2 (0 : Fin 1) cc) + aX V c (ix3 b p cc)

/-- The query projection. -/
def q0 (c : Dev nD) (b : Fin 8) (p : Fin 1024) (o : Fin 512) : EReal :=
  (∑ cc : Fin 512, xr0 V c b p cc * aQw V c (ix2 cc o)) + aQb V c (ix2 (0 : Fin 1) o)

/-- The key projection summed over a batch's pixels. -/
def ks0 (c : Dev nD) (b : Fin 8) (o : Fin 512) : EReal :=
  ∑ r : Fin 1024, ((∑ cc : Fin 512, xr0 V c b r cc * aKw V c (ix2 cc o)) + aKb V c (ix2 (0 : Fin 1) o))

/-- The query array. -/
def Qarr (c : Dev nD) : Vec Ideal S8x1024x512 .f32 := fun i => q0 V c (i 0) (i 1) (i 2)

/-- The array of key sums. -/
def KSarr (c : Dev nD) : Vec Ideal S8x1x512 .f32 := fun i => ks0 V c (i 0) (i 2)

theorem idx0_7 : ∀ t : Fin cfg0.N, win0_7.index t (0 : Fin 3) = t.val ∧ win0_7.index t (1 : Fin 3) = 0 ∧ win0_7.index t (2 : Fin 3) = 0 :=
  (by decide +kernel : ∀ t : Fin grid0.N, _)

theorem idx0_8 : ∀ t : Fin cfg0.N, win0_8.index t (0 : Fin 3) = t.val ∧ win0_8.index t (1 : Fin 3) = 0 ∧ win0_8.index t (2 : Fin 3) = 0 :=
  (by decide +kernel : ∀ t : Fin grid0.N, _)

/-- The residual block of the payload lemmas is the residual features of the point's batch. -/
theorem xrBlk_eq (c : Dev nD) (t : Fin cfg0.N) (p : Fin 1024) (cc : Fin 512) :
    xrBlk (iblk0 V c 0 t) (iblk0 V c 1 t) (iblk0 V c 2 t) p cc = xr0 V c (bat0 t) p cc := by
  unfold xrBlk xr0
  simp only [iblk0_0, iblk0_1, iblk0_2]

/-- What point `t` writes back into the query array is block `t` of `Qarr`. -/
theorem flushed7 (c : Dev nD) (t : Fin cfg0.N) :
    (dat0 V c).flushed 7 t = ((cfg0.win 7).blk t).view.read (Elt Ideal) (Qarr V c) := by
  obtain ⟨e0, e1, e2⟩ := idx0_7 t
  show (cfg0.win 7).cut (grid0.coords t) ((dat0 V c).after 7 t) = _
  rw [after0_7]
  unfold out0_7
  rw [View.canon_unit_zero hz3]
  simp only [View.ld_unit_zero (S := S1x1024x512) hz3, View.ld_unit_zero (S := S512x512) hz2, View.ld_unit_zero (S := S1x512) hz2]
  funext y
  show k0_pay3 (F := Ideal) (iblk0 V c 0 t) (iblk0 V c 1 t) (iblk0 V c 2 t) (iblk0 V c 3 t) (iblk0 V c 4 t) y
    = Qarr V c (((cfg0.win 7).blk t).view.emb y)
  obtain ⟨z, p, o, rfl⟩ : ∃ (z : Fin 1) (p : Fin 1024) (o : Fin 512), y = ix3 z p o := ⟨y 0, y 1, y 2, eq_ix3 y⟩
  obtain rfl : z = 0 := Subsingleton.elim _ _
  refine (pay3_apply (iblk0 V c 0 t) (iblk0 V c 1 t) (iblk0 V c 2 t) (iblk0 V c 3 t) (iblk0 V c 4 t) p o).trans ?_
  have hk : ((cfg0.win 7).blk t).view.emb (ix3 (0 : Fin 1) p o) = ix3 (bat0 t) p o := by
    funext a
    apply Fin.ext
    match a with
    | ⟨0, _⟩ => show win0_7.index t (0 : Fin 3) * 1 + 1 * 0 = t.val; omega
    | ⟨1, _⟩ => show win0_7.index t (1 : Fin 3) * 1024 + 1 * p.val = p.val; omega
    | ⟨2, _⟩ => show win0_7.index t (2 : Fin 3) * 512 + 1 * o.val = o.val; omega
  rw [hk]
  show _ = q0 V c (bat0 t) p o
  unfold q0
  simp only [xrBlk_eq, iblk0_3, iblk0_4]

/-- Every entry of the query array lies in its batch's block. -/
theorem cover7 (c : Dev nD) (i : S8x1024x512.Idx) :
    ∃ t : Fin cfg0.N, (cfg0.win 7).flush t = true ∧ i ∈ ((cfg0.win 7).blk t).view.set := by
  refine ⟨Fin.cast N_0.symm (i 0), flush0_7 _, ?_⟩
  obtain ⟨e0, e1, e2⟩ := idx0_7 (Fin.cast N_0.symm (i 0))
  show i ∈ ((View.whole main_v7_0).slice (win0_7.rect (Fin.cast N_0.symm (i 0)))).set
  rw [View.set_slice_whole, Rect.mem_set_unit]
  intro a
  have h1 : (i 1).val < 1024 := (i 1).isLt
  have h2 : (i 2).val < 512 := (i 2).isLt
  match a with
  | ⟨0, _⟩ => show win0_7.index (Fin.cast N_0.symm (i 0)) (0 : Fin 3) * 1 ≤ (i 0).val ∧ (i 0).val < win0_7.index (Fin.cast N_0.symm (i 0)) (0 : Fin 3) * 1 + 1
              rw [e0]; show (i 0).val * 1 ≤ (i 0).val ∧ (i 0).val < (i 0).val * 1 + 1; omega
  | ⟨1, _⟩ => show win0_7.index (Fin.cast N_0.symm (i 0)) (1 : Fin 3) * 1024 ≤ (i 1).val ∧ (i 1).val < win0_7.index (Fin.cast N_0.symm (i 0)) (1 : Fin 3) * 1024 + 1024
              omega
  | ⟨2, _⟩ => show win0_7.index (Fin.cast N_0.symm (i 0)) (2 : Fin 3) * 512 ≤ (i 2).val ∧ (i 2).val < win0_7.index (Fin.cast N_0.symm (i 0)) (2 : Fin 3) * 512 + 512
              omega

/-- The query array after the region. -/
theorem arr7 (c : Dev nD) : (dat0 V c).arrAt 7 cfg0.N = Qarr V c :=
  (dat0 V c).arrAt_eq_of_cover 7 (Qarr V c) (fun t _ => flushed7 V c t) (cover7 c)

/-- What point `t` writes back into the key sums is row `t` of `KSarr`. -/
theorem flushed8 (c : Dev nD) (t : Fin cfg0.N) :
    (dat0 V c).flushed 8 t = ((cfg0.win 8).blk t).view.read (Elt Ideal) (KSarr V c) := by
  obtain ⟨e0, e1, e2⟩ := idx0_8 t
  show (cfg0.win 8).cut (grid0.coords t) ((dat0 V c).after 8 t) = _
  rw [after0_8]
  unfold out0_8
  rw [View.canon_unit_zero hz3]
  simp only [View.ld_unit_zero (S := S1x1024x512) hz3, View.ld_unit_zero (S := S512x512) hz2, View.ld_unit_zero (S := S1x512) hz2]
  funext y
  show k0_pay1 (F := Ideal) (k0_pay4 (F := Ideal) (iblk0 V c 0 t) (iblk0 V c 1 t) (iblk0 V c 2 t) (iblk0 V c 5 t) (iblk0 V c 6 t)) y
    = KSarr V c (((cfg0.win 8).blk t).view.emb y)
  obtain ⟨z, z', o, rfl⟩ : ∃ (z z' : Fin 1) (o : Fin 512), y = ix3 z z' o := ⟨y 0, y 1, y 2, eq_ix3 y⟩
  obtain rfl : z = 0 := Subsingleton.elim _ _
  obtain rfl : z' = 0 := Subsingleton.elim _ _
  refine (pay1_apply _ o).trans ?_
  refine (pay4_apply (iblk0 V c 0 t) (iblk0 V c 1 t) (iblk0 V c 2 t) (iblk0 V c 5 t) (iblk0 V c 6 t) o).trans ?_
  have hk : ((cfg0.win 8).blk t).view.emb (ix3 (0 : Fin 1) (0 : Fin 1) o) = ix3 (bat0 t) (0 : Fin 1) o := by
    funext a
    apply Fin.ext
    match a with
    | ⟨0, _⟩ => show win0_8.index t (0 : Fin 3) * 1 + 1 * 0 = t.val; omega
    | ⟨1, _⟩ => show win0_8.index t (1 : Fin 3) * 1 + 1 * 0 = 0; omega
    | ⟨2, _⟩ => show win0_8.index t (2 : Fin 3) * 512 + 1 * o.val = o.val; omega
  rw [hk]
  show _ = ks0 V c (bat0 t) o
  unfold ks0
  simp only [xrBlk_eq, iblk0_5, iblk0_6]

/-- Every entry of the key sums lies in its batch's row. -/
theorem cover8 (c : Dev nD) (i : S8x1x512.Idx) :
    ∃ t : Fin cfg0.N, (cfg0.win 8).flush t = true ∧ i ∈ ((cfg0.win 8).blk t).view.set := by
  refine ⟨Fin.cast N_0.symm (i 0), flush0_8 _, ?_⟩
  obtain ⟨e0, e1, e2⟩ := idx0_8 (Fin.cast N_0.symm (i 0))
  show i ∈ ((View.whole main_v7_1).slice (win0_8.rect (Fin.cast N_0.symm (i 0)))).set
  rw [View.set_slice_whole, Rect.mem_set_unit]
  intro a
  have h1 : (i 1).val < 1 := (i 1).isLt
  have h2 : (i 2).val < 512 := (i 2).isLt
  match a with
  | ⟨0, _⟩ => show win0_8.index (Fin.cast N_0.symm (i 0)) (0 : Fin 3) * 1 ≤ (i 0).val ∧ (i 0).val < win0_8.index (Fin.cast N_0.symm (i 0)) (0 : Fin 3) * 1 + 1
              rw [e0]; show (i 0).val * 1 ≤ (i 0).val ∧ (i 0).val < (i 0).val * 1 + 1; omega
  | ⟨1, _⟩ => show win0_8.index (Fin.cast N_0.symm (i 0)) (1 : Fin 3) * 1 ≤ (i 1).val ∧ (i 1).val < win0_8.index (Fin.cast N_0.symm (i 0)) (1 : Fin 3) * 1 + 1
              omega
  | ⟨2, _⟩ => show win0_8.index (Fin.cast N_0.symm (i 0)) (2 : Fin 3) * 512 ≤ (i 2).val ∧ (i 2).val < win0_8.index (Fin.cast N_0.symm (i 0)) (2 : Fin 3) * 512 + 512
              omega

/-- The key sums after the region. -/
theorem arr8 (c : Dev nD) : (dat0 V c).arrAt 8 cfg0.N = KSarr V c :=
  (dat0 V c).arrAt_eq_of_cover 8 (KSarr V c) (fun t _ => flushed8 V c t) (cover8 c)

end Cert.KernelIdeal.KVal

end
-- ==== Proof.KReg1.lean ====
/-
  What the second pallas_call leaves in its result array, as a function of the two arrays it finds on entry: batch `b`'s
  row is the batch's replies `(Σ_c d[b,c]·q[b,p,c])·cK`, min-max normalised along the pixels, shifted, divided and squashed.
-/
import proofs.«154463_j3161095930112_1_alg».proof.Proof.Gen.KernelIdeal.Frame
import proofs.«154463_j3161095930112_1_alg».proof.Proof.KPay
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The queries the region reads. -/
abbrev bQ (c : Dev nD) : Vec Ideal S8x1024x512 .f32 := V c main_v7_0
/-- The difference rows the region reads. -/
abbrev bD (c : Dev nD) : Vec Ideal S8x1x512 .f32 := V c main_v11

/-- A grid point as a batch number. -/
abbrev bat1 (t : Fin cfg1.N) : Fin 8 := Fin.cast N_1 t

theorem hz3' : (![0, 0, 0] : Fin 3 → Nat) = fun _ => 0 := funext fun a => by fin_cases a <;> rfl

/-- The squashed normalised value at (i, p) depends on the replies of row `i` only. -/
theorem squash_congr {rep rep' : Fin 8 → Fin 1024 → EReal} {i i' : Fin 8} (h : rep i = rep' i') (t u : EReal)
    (p : Fin 1024) : Cert.Attn.squash rep t u i p = Cert.Attn.squash rep' t u i' p := by
  unfold Cert.Attn.squash
  rw [h]

theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)

/-- Batch `t`'s queries. -/
theorem iblk1_0 (c : Dev nD) (t : Fin cfg1.N) (z : Fin 1) (p : Fin 1024) (cc : Fin 512) :
    (iblk1 V c 0 t : Vec Ideal S1x1024x512 .f32) (ix3 z p cc) = bQ V c (ix3 (bat1 t) p cc) := by
  obtain ⟨e0, e1, e2⟩ := idx1_0 t
  unfold iblk1
  rw [View.read_apply]
  show V c main_v7_0 _ = V c main_v7_0 _
  congr 1
  funext a
  apply Fin.ext
  have hz : z.val = 0 := by have := z.isLt; omega
  match a with
  | ⟨0, _⟩ => show win1_0.index t (0 : Fin 3) * 1 + 1 * z.val = t.val; omega
  | ⟨1, _⟩ => show win1_0.index t (1 : Fin 3) * 1024 + 1 * p.val = p.val; omega
  | ⟨2, _⟩ => show win1_0.index t (2 : Fin 3) * 512 + 1 * cc.val = cc.val; omega

/-- Batch `t`'s difference row. -/
theorem iblk1_1 (c : Dev nD) (t : Fin cfg1.N) (z z' : Fin 1) (cc : Fin 512) :
    (iblk1 V c 1 t : Vec Ideal S1x1x512 .f32) (ix3 z z' cc) = bD V c (ix3 (bat1 t) (0 : Fin 1) cc) := by
  obtain ⟨e0, e1, e2⟩ := idx1_1 t
  unfold iblk1
  rw [View.read_apply]
  show V c main_v11 _ = V c main_v11 _
  congr 1
  funext a
  apply Fin.ext
  have hz : z.val = 0 := by have := z.isLt; omega
  have hz' : z'.val = 0 := by have := z'.isLt; omega
  match a with
  | ⟨0, _⟩ => show win1_1.index t (0 : Fin 3) * 1 + 1 * z.val = t.val; omega
  | ⟨1, _⟩ => show win1_1.index t (1 : Fin 3) * 1 + 1 * z'.val = 0; omega
  | ⟨2, _⟩ => show win1_1.index t (2 : Fin 3) * 512 + 1 * cc.val = cc.val; omega

/-- The replies of batch `b`, the kernel's way. -/
def rep1 (c : Dev nD) (b : Fin 8) (p : Fin 1024) : EReal :=
  (∑ cc : Fin 512, bD V c (ix3 b (0 : Fin 1) cc) * bQ V c (ix3 b p cc)) * Cert.Attn.cK

/-- The result array. -/
def Oarr (c : Dev nD) : Vec Ideal S8x1x1024 .f32 := fun i =>
  Cert.Attn.squash (rep1 V c) Cert.Attn.cT Cert.Attn.cU (i 0) (i 2)

/-- What point `t` writes back is row `t` of `Oarr`. -/
theorem flushed1_2 (c : Dev nD) (t : Fin cfg1.N) :
    (dat1 V c).flushed 2 t = ((cfg1.win 2).blk t).view.read (Elt Ideal) (Oarr V c) := by
  obtain ⟨e0, e1, e2⟩ := idx1_2 t
  show (cfg1.win 2).cut (grid1.coords t) ((dat1 V c).after 2 t) = _
  rw [after1_2]
  unfold out1_2
  rw [View.canon_unit_zero hz3']
  simp only [View.ld_unit_zero (S := S1x1024x512) hz3', View.ld_unit_zero (S := S1x1x512) hz3']
  funext y
  show k1_pay1 (F := Ideal) (iblk1 V c 0 t) (iblk1 V c 1 t) y = Oarr V c (((cfg1.win 2).blk t).view.emb y)
  obtain ⟨z, z', p, rfl⟩ : ∃ (z z' : Fin 1) (p : Fin 1024), y = ix3 z z' p := ⟨y 0, y 1, y 2, eq_ix3 y⟩
  obtain rfl : z = 0 := Subsingleton.elim _ _
  obtain rfl : z' = 0 := Subsingleton.elim _ _
  refine (k1_pay1_apply (iblk1 V c 0 t) (iblk1 V c 1 t) p).trans ?_
  have hk : ((cfg1.win 2).blk t).view.emb (ix3 (0 : Fin 1) (0 : Fin 1) p) = ix3 (bat1 t) (0 : Fin 1) p := by
    funext a
    apply Fin.ext
    match a with
    | ⟨0, _⟩ => show win1_2.index t (0 : Fin 3) * 1 + 1 * 0 = t.val; omega
    | ⟨1, _⟩ => show win1_2.index t (1 : Fin 3) * 1 + 1 * 0 = 0; omega
    | ⟨2, _⟩ => show win1_2.index t (2 : Fin 3) * 1024 + 1 * p.val = p.val; omega
  rw [hk]
  show _ = Cert.Attn.squash (rep1 V c) Cert.Attn.cT Cert.Attn.cU (bat1 t) p
  refine squash_congr (i := 0) (i' := bat1 t) ?_ _ _ p
  funext p'
  unfold rep1
  simp only [iblk1_0, iblk1_1]

/-- Every entry of the result lies in its batch's row. -/
theorem cover1_2' (c : Dev nD) (i : S8x1x1024.Idx) :
    ∃ t : Fin cfg1.N, (cfg1.win 2).flush t = true ∧ i ∈ ((cfg1.win 2).blk t).view.set := by
  refine ⟨Fin.cast N_1.symm (i 0), flush1_2 _, ?_⟩
  obtain ⟨e0, e1, e2⟩ := idx1_2 (Fin.cast N_1.symm (i 0))
  show i ∈ ((View.whole main_v12).slice (win1_2.rect (Fin.cast N_1.symm (i 0)))).set
  rw [View.set_slice_whole, Rect.mem_set_unit]
  intro a
  have h1 : (i 1).val < 1 := (i 1).isLt
  have h2 : (i 2).val < 1024 := (i 2).isLt
  match a with
  | ⟨0, _⟩ => show win1_2.index (Fin.cast N_1.symm (i 0)) (0 : Fin 3) * 1 ≤ (i 0).val ∧ (i 0).val < win1_2.index (Fin.cast N_1.symm (i 0)) (0 : Fin 3) * 1 + 1
              rw [e0]; show (i 0).val * 1 ≤ (i 0).val ∧ (i 0).val < (i 0).val * 1 + 1; omega
  | ⟨1, _⟩ => show win1_2.index (Fin.cast N_1.symm (i 0)) (1 : Fin 3) * 1 ≤ (i 1).val ∧ (i 1).val < win1_2.index (Fin.cast N_1.symm (i 0)) (1 : Fin 3) * 1 + 1
              omega
  | ⟨2, _⟩ => show win1_2.index (Fin.cast N_1.symm (i 0)) (2 : Fin 3) * 1024 ≤ (i 2).val ∧ (i 2).val < win1_2.index (Fin.cast N_1.symm (i 0)) (2 : Fin 3) * 1024 + 1024
              omega

/-- The result array after the region. -/
theorem arr1_2 (c : Dev nD) : (dat1 V c).arrAt 2 cfg1.N = Oarr V c :=
  (dat1 V c).arrAt_eq_of_cover 2 (Oarr V c) (fun t _ => flushed1_2 V c t) (cover1_2' c)

end Cert.KernelIdeal.KVal

end
-- ==== Proof.KHost.lean ====
/-
  The host operations around the two pallas_calls, read at an index: the reshapes and transposes that prepare the first
  call's operands, the cross-batch difference of key sums between the calls, and the closing reshape.
-/
import proofs.«154463_j3161095930112_1_alg».proof.Proof.Gen.KernelIdeal.Frame
import proofs.«154463_j3161095930112_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## On entry to the first call -/

/-- The input reshaped to [8, 1024, 512]: pixel `p` is row `p / 32`, column `p % 32`. -/
theorem V1_v0 (c : Dev nD) (b : Fin 8) (p : Fin 1024) (cc : Fin 512) :
    (V1 m ρ c main_v0 : Vec Ideal S8x1024x512 .f32) (ix3 b p cc) = Cert.Attn.xin (m ((c : Thread nD τ).loc main_arg0)) b p cc := by
  have e : (V1 m ρ c main_v0 : S8x1024x512.Idx → EReal)
      = shapeCast S8x1024x512 (m ((c : Thread nD τ).loc main_arg0)) shapeCasts_S8x32x32x512_S8x1024x512 := by
    show StableHlo.after hostOps0 (W0 m ρ c) (Proc.devRef .tc main_v0) = _
    after_results
    rfl
  rw [e]
  have hp : p.val < 1024 := p.isLt
  exact shapeCast_apply _ shapeCasts_S8x32x32x512_S8x1024x512 (ix3 b p cc)
    (ix4 b (⟨p.val / 32, by omega⟩ : Fin 32) (⟨p.val % 32, Nat.mod_lt _ (by norm_num)⟩ : Fin 32) cc) (by
    rewrite [Shape.rowMajor_val_four, Shape.rowMajor_val_three]
    show ((b.val * 32 + p.val / 32) * 32 + p.val % 32) * 512 + cc.val = (b.val * 1024 + p.val) * 512 + cc.val
    omega)

/-- The transposed convolution weight. -/
theorem V1_v1 (c : Dev nD) (a b : Fin 512) :
    (V1 m ρ c main_v1 : Vec Ideal S512x512 .f32) (ix2 a b) = Cert.Attn.win (m ((c : Thread nD τ).loc main_arg1)) b a := by
  have e : (V1 m ρ c main_v1 : S512x512.Idx → EReal)
      = transpose S512x512 [1, 0] (m ((c : Thread nD τ).loc main_arg1)) transposes_S512x512_S512x512_1_0 := by
    show StableHlo.after hostOps0 (W0 m ρ c) (Proc.devRef .tc main_v1) = _
    after_results
  rw [e]
  exact transpose_apply [1, 0] _ transposes_S512x512_S512x512_1_0 (ix2 a b) (ix2 b a)
    (fun d => match d with
      | ⟨0, _⟩ => rfl
      | ⟨1, _⟩ => rfl)

/-- The transposed query weight. -/
theorem V1_v2 (c : Dev nD) (a b : Fin 512) :
    (V1 m ρ c main_v2 : Vec Ideal S512x512 .f32) (ix2 a b) = Cert.Attn.win (m ((c : Thread nD τ).loc main_arg3)) b a := by
  have e : (V1 m ρ c main_v2 : S512x512.Idx → EReal)
      = transpose S512x512 [1, 0] (m ((c : Thread nD τ).loc main_arg3)) transposes_S512x512_S512x512_1_0 := by
    show StableHlo.after hostOps0 (W0 m ρ c) (Proc.devRef .tc main_v2) = _
    after_results
  rw [e]
  exact transpose_apply [1, 0] _ transposes_S512x512_S512x512_1_0 (ix2 a b) (ix2 b a)
    (fun d => match d with
      | ⟨0, _⟩ => rfl
      | ⟨1, _⟩ => rfl)

/-- The transposed key weight. -/
theorem V1_v3 (c : Dev nD) (a b : Fin 512) :
    (V1 m ρ c main_v3 : Vec Ideal S512x512 .f32) (ix2 a b) = Cert.Attn.win (m ((c : Thread nD τ).loc main_arg5)) b a := by
  have e : (V1 m ρ c main_v3 : S512x512.Idx → EReal)
      = transpose S512x512 [1, 0] (m ((c : Thread nD τ).loc main_arg5)) transposes_S512x512_S512x512_1_0 := by
    show StableHlo.after hostOps0 (W0 m ρ c) (Proc.devRef .tc main_v3) = _
    after_results
  rw [e]
  exact transpose_apply [1, 0] _ transposes_S512x512_S512x512_1_0 (ix2 a b) (ix2 b a)
    (fun d => match d with
      | ⟨0, _⟩ => rfl
      | ⟨1, _⟩ => rfl)

/-- The convolution bias as a row. -/
theorem V1_v4 (c : Dev nD) (z : Fin 1) (o : Fin 512) :
    (V1 m ρ c main_v4 : Vec Ideal S1x512 .f32) (ix2 z o) = Cert.Attn.bin (m ((c : Thread nD τ).loc main_arg2)) o := by
  have e : (V1 m ρ c main_v4 : S1x512.Idx → EReal)
      = shapeCast S1x512 (m ((c : Thread nD τ).loc main_arg2)) shapeCasts_S512_S1x512 := by
    show StableHlo.after hostOps0 (W0 m ρ c) (Proc.devRef .tc main_v4) = _
    after_results
    rfl
  rw [e]
  have hz : z.val < 1 := z.isLt
  exact shapeCast_apply _ shapeCasts_S512_S1x512 (ix2 z o) (ix1 o) (by
    rewrite [Shape.rowMajor_val_one, Shape.rowMajor_val_two]
    show o.val = z.val * 512 + o.val
    omega)

/-- The query bias as a row. -/
theorem V1_v5 (c : Dev nD) (z : Fin 1) (o : Fin 512) :
    (V1 m ρ c main_v5 : Vec Ideal S1x512 .f32) (ix2 z o) = Cert.Attn.bin (m ((c : Thread nD τ).loc main_arg4)) o := by
  have e : (V1 m ρ c main_v5 : S1x512.Idx → EReal)
      = shapeCast S1x512 (m ((c : Thread nD τ).loc main_arg4)) shapeCasts_S512_S1x512 := by
    show StableHlo.after hostOps0 (W0 m ρ c) (Proc.devRef .tc main_v5) = _
    after_results
    rfl
  rw [e]
  have hz : z.val < 1 := z.isLt
  exact shapeCast_apply _ shapeCasts_S512_S1x512 (ix2 z o) (ix1 o) (by
    rewrite [Shape.rowMajor_val_one, Shape.rowMajor_val_two]
    show o.val = z.val * 512 + o.val
    omega)

/-- The key bias as a row. -/
theorem V1_v6 (c : Dev nD) (z : Fin 1) (o : Fin 512) :
    (V1 m ρ c main_v6 : Vec Ideal S1x512 .f32) (ix2 z o) = Cert.Attn.bin (m ((c : Thread nD τ).loc main_arg6)) o := by
  have e : (V1 m ρ c main_v6 : S1x512.Idx → EReal)
      = shapeCast S1x512 (m ((c : Thread nD τ).loc main_arg6)) shapeCasts_S512_S1x512 := by
    show StableHlo.after hostOps0 (W0 m ρ c) (Proc.devRef .tc main_v6) = _
    after_results
    rfl
  rw [e]
  have hz : z.val < 1 := z.isLt
  exact shapeCast_apply _ shapeCasts_S512_S1x512 (ix2 z o) (ix1 o) (by
    rewrite [Shape.rowMajor_val_one, Shape.rowMajor_val_two]
    show o.val = z.val * 512 + o.val
    omega)

/-! ## On entry to the second call -/

/-- The query array is as the first call left it. -/
theorem V3_v7_0 (c : Dev nD) : V3 m ρ c main_v7_0 = (dat0 (V1 m ρ) c).arrAt 7 cfg0.N :=
  calc V3 m ρ c main_v7_0
    _ = W2 m ρ c (Proc.devRef .tc main_v7_0) :=
        StableHlo.after_of_forall_not_mem (b := Proc.devRef .tc main_v7_0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.reshape_writes, Finset.mem_singleton]
      repeat' apply And.intro
      all_goals exact StableHlo.devRef_ne_of_ne (by decide)))
    _ = (dat0 (V1 m ρ) c).arrAt 7 cfg0.N := W2_arr m ρ c 7

/-- The key sums as the first call left them, at their literal type. -/
abbrev ksArr (c : Dev nD) : Vec Ideal S8x1x512 .f32 := (dat0 (V1 m ρ) c).arrAt 8 cfg0.N

/-- The second call's output array, at its literal type. -/
abbrev outArr (c : Dev nD) : Vec Ideal S8x1x1024 .f32 := (dat1 (V3 m ρ) c).arrAt 2 cfg1.N

/-- The difference array: all batches' key sums added, less the own batch's. -/
theorem V3_v11 (c : Dev nD) (i : Fin 8) (z : Fin 1) (cc : Fin 512) :
    (V3 m ρ c main_v11 : Vec Ideal S8x1x512 .f32) (ix3 i z cc)
      = (∑ j : Fin 8, ksArr m ρ c (ix3 j (0 : Fin 1) cc)) - ksArr m ρ c (ix3 i (0 : Fin 1) cc) := by
  have h71 : W2 m ρ c (Proc.devRef .tc main_v7_1) = ksArr m ρ c := W2_arr m ρ c 8
  have e : V3 m ρ c main_v11
      = (subf (F := Ideal) (broadcastInDim S8x1x512 ![0, 1, 2] bcast_S1x1x512_S8x1x512_0_1_2
          (broadcastInDim S1x1x512 ![1, 2] bcast_S1x512_S1x1x512_1_2
            (Host.reduceAdd (F := Ideal) (ksArr m ρ c) (constant (F := Ideal) S_ .f32 0x00000000#32) reducesTo_S8x1x512_S1x512_d0 h_S_)))
          (ksArr m ρ c) : FVec Ideal S8x1x512 .f32) := by
    show StableHlo.after hostOps1 (W2 m ρ c) (Proc.devRef .tc main_v11) = _
    after_results
    rw [h71]
  obtain rfl : z = 0 := Subsingleton.elim z 0
  rw [e, subf_apply]
  generalize ksArr m ρ c = ks
  rw [broadcastInDim_apply ![0, 1, 2] bcast_S1x1x512_S8x1x512_0_1_2 _ (ix3 i (0 : Fin 1) cc) (ix3 (0 : Fin 1) (0 : Fin 1) cc)
      (fun a => match a with
        | ⟨0, _⟩ => rfl
        | ⟨1, _⟩ => rfl
        | ⟨2, _⟩ => rfl),
    broadcastInDim_apply ![1, 2] bcast_S1x512_S1x1x512_1_2 _ (ix3 (0 : Fin 1) (0 : Fin 1) cc) (ix2 (0 : Fin 1) cc)
      (fun a => match a with
        | ⟨0, _⟩ => rfl
        | ⟨1, _⟩ => rfl)]
  simp only [Host.reduceAdd, Ideal.hostReduceAdd_def]
  rw [Ideal.hostReduceAdd_single reducesTo_S8x1x512_S1x512_d0 (by decide)]
  rw [constant_apply, Ideal.ofBits_zero_f32, zero_add]
  refine congrArg (· - ks (ix3 i (0 : Fin 1) cc)) (Finset.sum_congr rfl fun k _ => ?_)
  exact congrArg ks (funext fun a => Fin.ext (by
    match a with
    | ⟨0, _⟩ => rfl
    | ⟨1, _⟩ => rfl
    | ⟨2, _⟩ => rfl))

/-! ## After the second call -/

/-- The result is the second call's output with its unit axis dropped. -/
theorem W5_v13 (c : Dev nD) (b : Fin 8) (p : Fin 1024) :
    (W5 m ρ c (Proc.devRef .tc main_v13) : Vec Ideal S8x1024 .f32) (ix2 b p)
      = outArr m ρ c (ix3 b (0 : Fin 1) p) := by
  have h12 : W4 m ρ c (Proc.devRef .tc main_v12) = outArr m ρ c := W4_arr m ρ c 2
  have e : (W5 m ρ c (Proc.devRef .tc main_v13) : S8x1024.Idx → EReal)
      = shapeCast S8x1024 (outArr m ρ c) shapeCasts_S8x1x1024_S8x1024 := by
    show StableHlo.after hostOps2 (W4 m ρ c) (Proc.devRef .tc main_v13) = _
    after_results
    rw [h12]
    rfl
  rw [e]
  exact shapeCast_apply _ shapeCasts_S8x1x1024_S8x1024 (ix2 b p) (ix3 b (0 : Fin 1) p) (by
    rewrite [Shape.rowMajor_val_three, Shape.rowMajor_val_two]
    show (b.val * 1 + 0) * 1024 + p.val = b.val * 1024 + p.val
    omega)

end Cert.KernelIdeal.KVal

end
-- ==== Proof.KValue.lean ====
/-
  The kernel program's result: the arrays each pallas_call finds on entry are the specification's features, so the first
  call leaves the queries and the per-batch key sums, the host forms the cross-batch difference, the second call leaves the
  folded replies normalised and squashed, and the closing reshape hands them out as `Cert.Attn.outFold`.
-/
import proofs.«154463_j3161095930112_1_alg».proof.Proof.KRun
import proofs.«154463_j3161095930112_1_alg».proof.Proof.KReg0
import proofs.«154463_j3161095930112_1_alg».proof.Proof.KReg1
import proofs.«154463_j3161095930112_1_alg».proof.Proof.KHost

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The seven argument arrays at their literal types. -/
abbrev a0 (c : Dev nD) : FVec Ideal ⟨4, ![8, 32, 32, 512]⟩ .f32 := m ((c : Thread nD τ).loc main_arg0)
abbrev a1 (c : Dev nD) : FVec Ideal ⟨2, ![512, 512]⟩ .f32 := m ((c : Thread nD τ).loc main_arg1)
abbrev a2 (c : Dev nD) : FVec Ideal ⟨1, ![512]⟩ .f32 := m ((c : Thread nD τ).loc main_arg2)
abbrev a3 (c : Dev nD) : FVec Ideal ⟨2, ![512, 512]⟩ .f32 := m ((c : Thread nD τ).loc main_arg3)
abbrev a4 (c : Dev nD) : FVec Ideal ⟨1, ![512]⟩ .f32 := m ((c : Thread nD τ).loc main_arg4)
abbrev a5 (c : Dev nD) : FVec Ideal ⟨2, ![512, 512]⟩ .f32 := m ((c : Thread nD τ).loc main_arg5)
abbrev a6 (c : Dev nD) : FVec Ideal ⟨1, ![512]⟩ .f32 := m ((c : Thread nD τ).loc main_arg6)

/-! ## The first call's entry arrays are the specification's features -/

theorem xr0_V1 (c : Dev nD) (b : Fin 8) (p : Fin 1024) (cc : Fin 512) :
    xr0 (V1 m ρ) c b p cc = Cert.Attn.xrOf (a0 m c) (a1 m c) (a2 m c) b p cc := by
  unfold xr0 Cert.Attn.xrOf Cert.Attn.resid Cert.Attn.proj
  have h0 : ∀ c', aX (V1 m ρ) c (ix3 b p c') = Cert.Attn.xin (a0 m c) b p c' := fun c' => V1_v0 m ρ c b p c'
  have h1 : ∀ c', aCw (V1 m ρ) c (ix2 c' cc) = Cert.Attn.win (a1 m c) cc c' := fun c' => V1_v1 m ρ c c' cc
  have h2 : aCb (V1 m ρ) c (ix2 (0 : Fin 1) cc) = Cert.Attn.bin (a2 m c) cc := V1_v4 m ρ c 0 cc
  have hs : (∑ c' : Fin 512, aX (V1 m ρ) c (ix3 b p c') * aCw (V1 m ρ) c (ix2 c' cc))
      = ∑ c' : Fin 512, Cert.Attn.xin (a0 m c) b p c' * Cert.Attn.win (a1 m c) cc c' :=
    Finset.sum_congr rfl fun c' _ => by rw [h0 c', h1 c']
  rw [h2, h0 cc, hs]

theorem q0_V1 (c : Dev nD) (b : Fin 8) (p : Fin 1024) (o : Fin 512) :
    q0 (V1 m ρ) c b p o = Cert.Attn.qOf (a0 m c) (a1 m c) (a2 m c) (a3 m c) (a4 m c) b p o := by
  unfold q0 Cert.Attn.qOf Cert.Attn.proj
  have h1 : ∀ cc, aQw (V1 m ρ) c (ix2 cc o) = Cert.Attn.win (a3 m c) o cc := fun cc => V1_v2 m ρ c cc o
  have h2 : aQb (V1 m ρ) c (ix2 (0 : Fin 1) o) = Cert.Attn.bin (a4 m c) o := V1_v5 m ρ c 0 o
  have hs : (∑ cc : Fin 512, xr0 (V1 m ρ) c b p cc * aQw (V1 m ρ) c (ix2 cc o))
      = ∑ cc : Fin 512, Cert.Attn.xrOf (a0 m c) (a1 m c) (a2 m c) b p cc * Cert.Attn.win (a3 m c) o cc :=
    Finset.sum_congr rfl fun cc _ => by rw [xr0_V1 m ρ c b p cc, h1 cc]
  rw [h2, hs]

theorem ks0_V1 (c : Dev nD) (b : Fin 8) (o : Fin 512) :
    ks0 (V1 m ρ) c b o = Cert.Attn.ksum (Cert.Attn.kOf (a0 m c) (a1 m c) (a2 m c) (a5 m c) (a6 m c)) b o := by
  unfold ks0 Cert.Attn.ksum Cert.Attn.kOf Cert.Attn.proj
  have h1 : ∀ cc, aKw (V1 m ρ) c (ix2 cc o) = Cert.Attn.win (a5 m c) o cc := fun cc => V1_v3 m ρ c cc o
  have h2 : aKb (V1 m ρ) c (ix2 (0 : Fin 1) o) = Cert.Attn.bin (a6 m c) o := V1_v6 m ρ c 0 o
  refine Finset.sum_congr rfl fun r _ => ?_
  have hs : (∑ cc : Fin 512, xr0 (V1 m ρ) c b r cc * aKw (V1 m ρ) c (ix2 cc o))
      = ∑ cc : Fin 512, Cert.Attn.xrOf (a0 m c) (a1 m c) (a2 m c) b r cc * Cert.Attn.win (a5 m c) o cc :=
    Finset.sum_congr rfl fun cc _ => by rw [xr0_V1 m ρ c b r cc, h1 cc]
  rw [h2, hs]

/-! ## The second call's entry arrays -/

theorem bQ_V3 (c : Dev nD) (b : Fin 8) (p : Fin 1024) (cc : Fin 512) :
    bQ (V3 m ρ) c (ix3 b p cc) = Cert.Attn.qOf (a0 m c) (a1 m c) (a2 m c) (a3 m c) (a4 m c) b p cc := by
  have e : bQ (V3 m ρ) c = Qarr (V1 m ρ) c := (V3_v7_0 m ρ c).trans (arr7 (V1 m ρ) c)
  rw [e]
  exact q0_V1 m ρ c b p cc

theorem ksArr_eq (c : Dev nD) (j : Fin 8) (cc : Fin 512) :
    ksArr m ρ c (ix3 j (0 : Fin 1) cc) = Cert.Attn.ksum (Cert.Attn.kOf (a0 m c) (a1 m c) (a2 m c) (a5 m c) (a6 m c)) j cc := by
  have e : ksArr m ρ c = KSarr (V1 m ρ) c := arr8 (V1 m ρ) c
  rw [e]
  exact ks0_V1 m ρ c j cc

theorem bD_V3 (c : Dev nD) (i : Fin 8) (cc : Fin 512) :
    bD (V3 m ρ) c (ix3 i (0 : Fin 1) cc) = Cert.Attn.diff (Cert.Attn.kOf (a0 m c) (a1 m c) (a2 m c) (a5 m c) (a6 m c)) i cc := by
  refine (V3_v11 m ρ c i 0 cc).trans ?_
  unfold Cert.Attn.diff
  have hs : (∑ j : Fin 8, ksArr m ρ c (ix3 j (0 : Fin 1) cc))
      = ∑ j : Fin 8, Cert.Attn.ksum (Cert.Attn.kOf (a0 m c) (a1 m c) (a2 m c) (a5 m c) (a6 m c)) j cc :=
    Finset.sum_congr rfl fun j _ => ksArr_eq m ρ c j cc
  rw [hs, ksArr_eq m ρ c i cc]

theorem rep1_V3 (c : Dev nD) (b : Fin 8) (p : Fin 1024) :
    rep1 (V3 m ρ) c b p = Cert.Attn.repFold (Cert.Attn.qOf (a0 m c) (a1 m c) (a2 m c) (a3 m c) (a4 m c))
      (Cert.Attn.kOf (a0 m c) (a1 m c) (a2 m c) (a5 m c) (a6 m c)) Cert.Attn.cK b p := by
  unfold rep1 Cert.Attn.repFold
  have hs : (∑ cc : Fin 512, bD (V3 m ρ) c (ix3 b (0 : Fin 1) cc) * bQ (V3 m ρ) c (ix3 b p cc))
      = ∑ cc : Fin 512, Cert.Attn.diff (Cert.Attn.kOf (a0 m c) (a1 m c) (a2 m c) (a5 m c) (a6 m c)) b cc
          * Cert.Attn.qOf (a0 m c) (a1 m c) (a2 m c) (a3 m c) (a4 m c) b p cc :=
    Finset.sum_congr rfl fun cc _ => by rw [bD_V3 m ρ c b cc, bQ_V3 m ρ c b p cc]
  rw [hs]

/-! ## The result array -/

theorem W5_v13_eq (c : Dev nD) :
    W5 m ρ c (Proc.devRef .tc main_v13) = Cert.Attn.outFold (a0 m c) (a1 m c) (a2 m c) (a3 m c) (a4 m c) (a5 m c) (a6 m c) := by
  funext i
  obtain ⟨b, p, rfl⟩ : ∃ (b : Fin 8) (p : Fin 1024), i = ix2 b p := ⟨i 0, i 1, eq_ix2 i⟩
  refine (W5_v13 m ρ c b p).trans ?_
  have e : outArr m ρ c = Oarr (V3 m ρ) c := arr1_2 (V3 m ρ) c
  rw [e]
  show Cert.Attn.squash (rep1 (V3 m ρ) c) Cert.Attn.cT Cert.Attn.cU b p
    = Cert.Attn.squash (Cert.Attn.repFold (Cert.Attn.qOf (a0 m c) (a1 m c) (a2 m c) (a3 m c) (a4 m c))
      (Cert.Attn.kOf (a0 m c) (a1 m c) (a2 m c) (a5 m c) (a6 m c)) Cert.Attn.cK) Cert.Attn.cT Cert.Attn.cU b p
  exact squash_congr (funext fun p' => rep1_V3 m ρ c b p') _ _ p

/-- Every weakly fair execution of the kernel's program ends with its result array at `Cert.Attn.outFold` of the
    argument arrays, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v13)
        = Cert.Attn.outFold (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W5_v13_eq m ρ c), (h c).2⟩) (Cert.KernelIdeal.KRun.run_named (F := Ideal) m ρ)

end Cert.KernelIdeal.KVal

end
-- ==== Proof.lean ====
/- The certificate's claim: the two frames of the kernel's program, the reference's frame, the (empty) idealization ledger,
   and the equivalence over the extended reals.

   The programs compute, per batch i and pixel p, a "reply": the mean scaled affinity of the query at (i, p) with every key
   of every other batch. The reference forms all affinities q[i,p,:]·k[j,r,:], scales each, sums them per key batch, takes the
   total less the own-batch block and divides by the number of foreign keys. The kernel contracts q[i,p,:] once with
   (sum of all keys) - (sum of the own batch's keys) and multiplies by a single constant. For real inputs the two replies
   are the same real-linear form in the queries up to a positive constant factor: distributing the scale and the contraction
   over the finite sums is legal on real numbers, which is where the precondition (every input entry finite) is used. The
   two constants differ (one is a rounded quotient), but both programs then normalise a batch's replies by their minimum
   and maximum, which forgets a positive common factor (and when all replies of a batch coincide both sides divide zero by
   zero), subtract the same threshold, divide by the same temperature and apply the logistic function, which one program
   spells as a single operation and the other as 1 / (1 + exp(-x)): the same function on every extended real. -/
import proofs.«154463_j3161095930112_1_alg».proof.Defs
import proofs.«154463_j3161095930112_1_alg».proof.Proof.Gen.Kernel
import proofs.«154463_j3161095930112_1_alg».proof.Proof.Gen.Kernel.Skeleton
import proofs.«154463_j3161095930112_1_alg».proof.Proof.Gen.Kernel.Launch
import proofs.«154463_j3161095930112_1_alg».proof.Proof.Gen.Kernel.Points
import proofs.«154463_j3161095930112_1_alg».proof.Proof.Gen.Kernel.Frame
import proofs.«154463_j3161095930112_1_alg».proof.Proof.Gen.KernelIdeal
import proofs.«154463_j3161095930112_1_alg».proof.Proof.Gen.KernelIdeal.Skeleton
import proofs.«154463_j3161095930112_1_alg».proof.Proof.Gen.KernelIdeal.Launch
import proofs.«154463_j3161095930112_1_alg».proof.Proof.Gen.KernelIdeal.Points
import proofs.«154463_j3161095930112_1_alg».proof.Proof.Gen.KernelIdeal.Frame
import proofs.«154463_j3161095930112_1_alg».proof.Proof.Gen.ReferenceIdeal
import proofs.«154463_j3161095930112_1_alg».proof.Proof.Gen.Pre_finite_inputs
import proofs.«154463_j3161095930112_1_alg».proof.Proof.Gen.ReferenceIdeal.Run
import proofs.«154463_j3161095930112_1_alg».proof.Proof.Gen.ReferenceIdeal.Read
import proofs.«154463_j3161095930112_1_alg».proof.Proof.Algebra
import proofs.«154463_j3161095930112_1_alg».proof.Proof.Finite
import proofs.«154463_j3161095930112_1_alg».proof.Proof.RefValue
import proofs.«154463_j3161095930112_1_alg».proof.Proof.KValue
import Idealize.ShloMosaic.Adequacy
import Idealize.ShloMosaic.Init

noncomputable section

namespace Cert.Proof

open Idealize.ShloMosaic Idealize.SL.Sem

/-- The kernel's program at the word level runs and leaves its arguments. -/
theorem frame_k [hKernel : Cert.Kernel.Facts] [hPre_finite_inputs : Cert.Pre_finite_inputs.Facts] : Cert.frame_Kernel :=
  fun m ρ _ => Cert.Kernel.Gen.frame m ρ

/-- So does its reading over the extended reals. -/
theorem frame_ki [hKernelIdeal : Cert.KernelIdeal.Facts] [hPre_finite_inputs : Cert.Pre_finite_inputs.Facts] : Cert.frame_KernelIdeal :=
  fun m ρ _ => Cert.KernelIdeal.Gen.frame m ρ

/-- The reference is host operations only: its run, with the result dropped. -/
theorem frame_ri [hReferenceIdeal : Cert.ReferenceIdeal.Facts] [hPre_finite_inputs : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the same result array: the kernel's at the folded replies normalised and squashed, the
    reference's at the blockwise replies normalised and squashed, equal when every argument entry is real. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' hpre hagree
  refine ⟨_, Cert.KernelIdeal.KVal.kernel_run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6⟩ := hagree c
  rw [e0, e1, e2, e3, e4, e5, e6]
  obtain ⟨h0, h1, h2, h3, h4, h5, h6⟩ := Cert.Attn.allReal_of_pre _ _ _ _ _ _ _ (hpre c)
  exact (Cert.Attn.outFold_eq_outAll _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_k (hKernel := Cert.Kernel.Gen.facts) (hPre_finite_inputs := Cert.Pre_finite_inputs.Gen.facts),
    frame_ki (hKernelIdeal := Cert.KernelIdeal.Gen.facts) (hPre_finite_inputs := Cert.Pre_finite_inputs.Gen.facts),
    frame_ri (hReferenceIdeal := Cert.ReferenceIdeal.Gen.facts) (hPre_finite_inputs := Cert.Pre_finite_inputs.Gen.facts),
    trivial,
    algebraic (hKernelIdeal := Cert.KernelIdeal.Gen.facts) (hReferenceIdeal := Cert.ReferenceIdeal.Gen.facts)
      (hPre_finite_inputs := Cert.Pre_finite_inputs.Gen.facts)⟩

end Cert.Proof

end
